-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2000 : Shape := ⟨2, ![64, 2000]⟩
abbrev S256x2000 : Shape := ⟨2, ![256, 2000]⟩
abbrev S256 : Shape := ⟨1, ![256]⟩
abbrev S2000x256 : Shape := ⟨2, ![2000, 256]⟩
abbrev S2000x768 : Shape := ⟨2, ![2000, 768]⟩
abbrev S_ : Shape := ⟨0, ![]⟩

class Facts : Prop where
  bcast_S_S64x2000 : S_.BroadcastsInDim S64x2000 (![] : Fin 0 → Fin S64x2000.rank)
  reducesTo_S64x2000_S_d0_1 : S64x2000.ReducesTo [0, 1] S_
  h_S_ : 0 < S_.numel
  bcast_S_S256x2000 : S_.BroadcastsInDim S256x2000 (![] : Fin 0 → Fin S256x2000.rank)
  reducesTo_S256x2000_S_d0_1 : S256x2000.ReducesTo [0, 1] S_
  bcast_S_S256 : S_.BroadcastsInDim S256 (![] : Fin 0 → Fin S256.rank)
  reducesTo_S256_S_d0 : S256.ReducesTo [0] S_
  bcast_S_S2000x256 : S_.BroadcastsInDim S2000x256 (![] : Fin 0 → Fin S2000x256.rank)
  reducesTo_S2000x256_S_d0_1 : S2000x256.ReducesTo [0, 1] S_
  bcast_S_S2000x768 : S_.BroadcastsInDim S2000x768 (![] : Fin 0 → Fin S2000x768.rank)
  reducesTo_S2000x768_S_d0_1 : S2000x768.ReducesTo [0, 1] S_

variable [Facts]

def fn_part1 {F : FTy → Type} [FloatOps F] (main_arg4 : FVec F S2000x768 .f32) (main_v13 : IVec S_ 1) (main_v16 : IVec S2000x256 1) : IVec S_ 1 :=
  let main_c_5 : IVec S_ 1 := constantI S_ 1 1#1
  let main_v17 : IVec S_ 1 := (fun x v => Host.reduce IntOp.andi x v reducesTo_S2000x256_S_d0_1 h_S_) main_v16 main_c_5
  let main_v18 : IVec S_ 1 := andi main_v13 main_v17
  let main_v19 : FVec F S2000x768 .f32 := Host.absf main_arg4
  let main_cst_6 : FVec F S_ .f32 := constant S_ .f32 0x7F800000#32
  let main_v20 : FVec F S2000x768 .f32 := broadcastInDim S2000x768 ![] bcast_S_S2000x768 main_cst_6
  let main_v21 : IVec S2000x768 1 := cmpf .olt main_v19 main_v20
  let main_c_7 : IVec S_ 1 := constantI S_ 1 1#1
  let main_v22 : IVec S_ 1 := (fun x v => Host.reduce IntOp.andi x v reducesTo_S2000x768_S_d0_1 h_S_) main_v21 main_c_7
  let main_v23 : IVec S_ 1 := andi main_v18 main_v22
  main_v23

def fn {F : FTy → Type} [FloatOps F] (main_arg0 : FVec F S64x2000 .f32) (main_arg1 : FVec F S256x2000 .f32) (main_arg2 : FVec F S256 .f32) (main_arg3 : FVec F S2000x256 .f32) (main_arg4 : FVec F S2000x768 .f32) : IVec S_ 1 :=
  let main_v0 : FVec F S64x2000 .f32 := Host.absf main_arg0
  let main_cst : FVec F S_ .f32 := constant S_ .f32 0x7F800000#32
  let main_v1 : FVec F S64x2000 .f32 := broadcastInDim S64x2000 ![] bcast_S_S64x2000 main_cst
  let main_v2 : IVec S64x2000 1 := cmpf .olt main_v0 main_v1
  let main_c : IVec S_ 1 := constantI S_ 1 1#1
  let main_v3 : IVec S_ 1 := (fun x v => Host.reduce IntOp.andi x v reducesTo_S64x2000_S_d0_1 h_S_) main_v2 main_c
  let main_v4 : FVec F S256x2000 .f32 := Host.absf main_arg1
  let main_cst_0 : FVec F S_ .f32 := constant S_ .f32 0x7F800000#32
  let main_v5 : FVec F S256x2000 .f32 := broadcastInDim S256x2000 ![] bcast_S_S256x2000 main_cst_0
  let main_v6 : IVec S256x2000 1 := cmpf .olt main_v4 main_v5
  let main_c_1 : IVec S_ 1 := constantI S_ 1 1#1
  let main_v7 : IVec S_ 1 := (fun x v => Host.reduce IntOp.andi x v reducesTo_S256x2000_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S2000x256 .f32 := Host.absf main_arg3
  let main_cst_4 : FVec F S_ .f32 := constant S_ .f32 0x7F800000#32
  let main_v15 : FVec F S2000x256 .f32 := broadcastInDim S2000x256 ![] bcast_S_S2000x256 main_cst_4
  let main_v16 : IVec S2000x256 1 := cmpf .olt main_v14 main_v15
  fn_part1 (F := F) main_arg4 main_v13 main_v16
-- ==== Kernel.lean ====
abbrev S64x2000 : Shape := ⟨2, ![64, 2000]⟩
abbrev S256x2000 : Shape := ⟨2, ![256, 2000]⟩
abbrev S256 : Shape := ⟨1, ![256]⟩
abbrev S2000x256 : Shape := ⟨2, ![2000, 256]⟩
abbrev S2000x768 : Shape := ⟨2, ![2000, 768]⟩
abbrev S_ : Shape := ⟨0, ![]⟩
abbrev S64x2048 : Shape := ⟨2, ![64, 2048]⟩
abbrev S256x2048 : Shape := ⟨2, ![256, 2048]⟩
abbrev S2048x768 : Shape := ⟨2, ![2048, 768]⟩
abbrev S256x1 : Shape := ⟨2, ![256, 1]⟩
abbrev S64x256x768 : Shape := ⟨3, ![64, 256, 768]⟩
abbrev S64x256 : Shape := ⟨2, ![64, 256]⟩
abbrev S128x256 : Shape := ⟨2, ![128, 256]⟩
abbrev S256x128 : Shape := ⟨2, ![256, 128]⟩
abbrev S128x1 : Shape := ⟨2, ![128, 1]⟩
abbrev S64x128x128 : Shape := ⟨3, ![64, 128, 128]⟩
abbrev S64x1x256 : Shape := ⟨3, ![64, 1, 256]⟩
abbrev S1x128x256 : Shape := ⟨3, ![1, 128, 256]⟩
abbrev S64x128x256 : Shape := ⟨3, ![64, 128, 256]⟩
abbrev S8192x256 : Shape := ⟨2, ![8192, 256]⟩
abbrev S8192x128 : Shape := ⟨2, ![8192, 128]⟩
abbrev S1x128x1 : Shape := ⟨3, ![1, 128, 1]⟩
abbrev S64x196608 : Shape := ⟨2, ![64, 196608]⟩

abbrev nBuf : Space → Nat
  | .hbm => 19
  | .vmem => 11
  | .smem => 0
  | _ => 0

abbrev bufTy : (tb : Table) → Fin (tcTables nBuf tb) → BufTy
  | .hbm, ⟨0, _⟩ => ⟨S64x2000, .f32⟩
  | .hbm, ⟨1, _⟩ => ⟨S256x2000, .f32⟩
  | .hbm, ⟨2, _⟩ => ⟨S256, .f32⟩
  | .hbm, ⟨3, _⟩ => ⟨S2000x256, .f32⟩
  | .hbm, ⟨4, _⟩ => ⟨S2000x768, .f32⟩
  | .hbm, ⟨5, _⟩ => ⟨S256x2000, .f32⟩
  | .hbm, ⟨6, _⟩ => ⟨S256x2000, .f32⟩
  | .hbm, ⟨7, _⟩ => ⟨S_, .i32⟩
  | .hbm, ⟨8, _⟩ => ⟨S_, .f32⟩
  | .hbm, ⟨9, _⟩ => ⟨S64x2048, .f32⟩
  | .hbm, ⟨10, _⟩ => ⟨S_, .i32⟩
  | .hbm, ⟨11, _⟩ => ⟨S_, .f32⟩
  | .hbm, ⟨12, _⟩ => ⟨S256x2048, .f32⟩
  | .hbm, ⟨13, _⟩ => ⟨S_, .i32⟩
  | .hbm, ⟨14, _⟩ => ⟨S_, .f32⟩
  | .hbm, ⟨15, _⟩ => ⟨S2048x768, .f32⟩
  | .hbm, ⟨16, _⟩ => ⟨S256x1, .f32⟩
  | .hbm, ⟨17, _⟩ => ⟨S64x256x768, .f32⟩
  | .hbm, ⟨18, _⟩ => ⟨S64x196608, .f32⟩
  | .local _ .vmem, ⟨0, _⟩ => ⟨S64x256, .f32⟩
  | .local _ .vmem, ⟨1, _⟩ => ⟨S64x256, .f32⟩
  | .local _ .vmem, ⟨2, _⟩ => ⟨S128x256, .f32⟩
  | .local _ .vmem, ⟨3, _⟩ => ⟨S128x256, .f32⟩
  | .local _ .vmem, ⟨4, _⟩ => ⟨S256x128, .f32⟩
  | .local _ .vmem, ⟨5, _⟩ => ⟨S256x128, .f32⟩
  | .local _ .vmem, ⟨6, _⟩ => ⟨S128x1, .f32⟩
  | .local _ .vmem, ⟨7, _⟩ => ⟨S128x1, .f32⟩
  | .local _ .vmem, ⟨8, _⟩ => ⟨S64x128x128, .f32⟩
  | .local _ .vmem, ⟨9, _⟩ => ⟨S64x128x128, .f32⟩
  | .local _ .vmem, ⟨10, _⟩ => ⟨S64x128x128, .f32⟩
  | _, _ => ⟨S64x2000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_c_1 : Ref sig .tc := ⟨.hbm, 13, rfl⟩
abbrev main_call2_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 6, 8], ![false, false, false]⟩

def k0_cond2 (i : grid0.Coords) : BitVec 1 :=
  let arg2 : BitVec 32 := BitVec.ofNat 32 (i 2).val
  let c7_i32 : BitVec 32 := 7#32
  let v24 : BitVec 1 := Scalar.cmpi .eq arg2 c7_i32
  let v25 : BitVec 32 := Scalar.extui v24
  let c0_i32_12 : BitVec 32 := 0#32
  let v26 : BitVec 1 := Scalar.cmpi .ne v25 c0_i32_12
  v26

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S64x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  transposes_S2000x256_S256x2000_1_0 : S2000x256.Transposes [1, 0] S256x2000
  pads_S64x2000_S64x2048_000_0480 : S64x2000.Pads (![0, 0] : Fin 2 → Nat) ![0, 48] ![0, 0] S64x2048
  h_S_ : 0 < S_.numel
  pads_S256x2000_S256x2048_000_0480 : S256x2000.Pads (![0, 0] : Fin 2 → Nat) ![0, 48] ![0, 0] S256x2048
  pads_S2000x768_S2048x768_0480_000 : S2000x768.Pads (![0, 0] : Fin 2 → Nat) ![48, 0] ![0, 0] S2048x768
  shapeCasts_S256_S256x1 : S256.ShapeCasts S256x1
  inb_S64x128x128_S64x128x128_0_0_0 : ∀ a, (![0, 0, 0] : Fin 3 → Nat) a + S64x128x128.size a ≤ S64x128x128.size a
  h_S64x128x128 : 0 < S64x128x128.numel
  shapeCasts_S64x128x128_S64x128x128 : S64x128x128.ShapeCasts S64x128x128
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S128x256_S128x256_0_0 : ∀ a, (![0, 0] : Fin 2 → Nat) a + S128x256.size a ≤ S128x256.size a
  h_S128x256 : 0 < S128x256.numel
  shapeCasts_S128x256_S128x256 : S128x256.ShapeCasts S128x256
  shapeCasts_S64x256_S64x1x256 : S64x256.ShapeCasts S64x1x256
  shapeCasts_S128x256_S1x128x256 : S128x256.ShapeCasts S1x128x256
  broadcasts_S64x1x256_S64x128x256 : S64x1x256.Broadcasts S64x128x256
  broadcasts_S1x128x256_S64x128x256 : S1x128x256.Broadcasts S64x128x256
  bitsLt_bf16_f32 : FTy.bits .bf16 < FTy.bits .f32
  shapeCasts_S64x128x256_S8192x256 : S64x128x256.ShapeCasts S8192x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  shapeCasts_S8192x128_S64x128x128 : S8192x128.ShapeCasts S64x128x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  shapeCasts_S128x1_S1x128x1 : S128x1.ShapeCasts S1x128x1
  broadcasts_S1x128x1_S64x128x128 : S1x128x1.Broadcasts S64x128x128
  shapeCasts_S64x256x768_S64x196608 : S64x256x768.ShapeCasts S64x196608
  dot_S8192x256_S256x128_S8192x128_1_0_0_1_n_n_wf : DotDims.WF S8192x256 S256x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x256.size a ≤ S64x2048.size a
  hwx0_0 : ∀ i : grid0.Coords, EltTy.bits .f32 = 32 ∨ (Rect.block (s := S64x2048) S64x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S256x2048.size a
  hwx0_1 : ∀ i : grid0.Coords, EltTy.bits .f32 = 32 ∨ (Rect.block (s := S256x2048) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S2048x768.size a
  hwx0_2 : ∀ i : grid0.Coords, EltTy.bits .f32 = 32 ∨ (Rect.block (s := S2048x768) S256x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S256x1.size a
  hwx0_3 : ∀ i : grid0.Coords, EltTy.bits .f32 = 32 ∨ (Rect.block (s := S256x1) S128x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x128x128.size a ≤ S64x256x768.size a
  hwx0_4 : ∀ i : grid0.Coords, EltTy.bits .f32 = 32 ∨ (Rect.block (s := S64x256x768) S64x128x128.size (cc0_transform_4 i) (hinb0_4 i)).WholeWords (EltTy.packing .f32)

variable [Facts₀]

def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf

abbrev win0_0 : Pipeline.Window sig grid0 :=
  Pipeline.Window.ofSpec (Memref.whole main_v2) S64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S256x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S128x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S64x128x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S64x2000 : Shape := ⟨2, ![64, 2000]⟩
abbrev S256x2000 : Shape := ⟨2, ![256, 2000]⟩
abbrev S256 : Shape := ⟨1, ![256]⟩
abbrev S2000x256 : Shape := ⟨2, ![2000, 256]⟩
abbrev S2000x768 : Shape := ⟨2, ![2000, 768]⟩
abbrev S64x1x2000 : Shape := ⟨3, ![64, 1, 2000]⟩
abbrev S1x256x2000 : Shape := ⟨3, ![1, 256, 2000]⟩
abbrev S64x256x2000 : Shape := ⟨3, ![64, 256, 2000]⟩
abbrev S64x256x768 : Shape := ⟨3, ![64, 256, 768]⟩
abbrev S1x256x1 : Shape := ⟨3, ![1, 256, 1]⟩
abbrev S64x196608 : Shape := ⟨2, ![64, 196608]⟩

abbrev nBuf : Space → Nat
  | .hbm => 17
  | .vmem => 0
  | .smem => 0
  | _ => 0

abbrev bufTy : (tb : Table) → Fin (tcTables nBuf tb) → BufTy
  | .hbm, ⟨0, _⟩ => ⟨S64x2000, .f32⟩
  | .hbm, ⟨1, _⟩ => ⟨S256x2000, .f32⟩
  | .hbm, ⟨2, _⟩ => ⟨S256, .f32⟩
  | .hbm, ⟨3, _⟩ => ⟨S2000x256, .f32⟩
  | .hbm, ⟨4, _⟩ => ⟨S2000x768, .f32⟩
  | .hbm, ⟨5, _⟩ => ⟨S256x2000, .f32⟩
  | .hbm, ⟨6, _⟩ => ⟨S256x2000, .f32⟩
  | .hbm, ⟨7, _⟩ => ⟨S64x1x2000, .f32⟩
  | .hbm, ⟨8, _⟩ => ⟨S1x256x2000, .f32⟩
  | .hbm, ⟨9, _⟩ => ⟨S64x256x2000, .f32⟩
  | .hbm, ⟨10, _⟩ => ⟨S64x256x2000, .f32⟩
  | .hbm, ⟨11, _⟩ => ⟨S64x256x2000, .f32⟩
  | .hbm, ⟨12, _⟩ => ⟨S64x256x768, .f32⟩
  | .hbm, ⟨13, _⟩ => ⟨S1x256x1, .f32⟩
  | .hbm, ⟨14, _⟩ => ⟨S64x256x768, .f32⟩
  | .hbm, ⟨15, _⟩ => ⟨S64x256x768, .f32⟩
  | .hbm, ⟨16, _⟩ => ⟨S64x196608, .f32⟩
  | _, _ => ⟨S64x2000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  transposes_S2000x256_S256x2000_1_0 : S2000x256.Transposes [1, 0] S256x2000
  bcast_S64x2000_S64x1x2000_0_2 : S64x2000.BroadcastsInDim S64x1x2000 (![0, 2] : Fin 2 → Fin S64x1x2000.rank)
  bcast_S256x2000_S1x256x2000_1_2 : S256x2000.BroadcastsInDim S1x256x2000 (![1, 2] : Fin 2 → Fin S1x256x2000.rank)
  bcast_S64x1x2000_S64x256x2000_0_1_2 : S64x1x2000.BroadcastsInDim S64x256x2000 (![0, 1, 2] : Fin 3 → Fin S64x256x2000.rank)
  bcast_S1x256x2000_S64x256x2000_0_1_2 : S1x256x2000.BroadcastsInDim S64x256x2000 (![0, 1, 2] : Fin 3 → Fin S64x256x2000.rank)
  bcast_S256_S1x256x1_1 : S256.BroadcastsInDim S1x256x1 (![1] : Fin 1 → Fin S1x256x1.rank)
  bcast_S1x256x1_S64x256x768_0_1_2 : S1x256x1.BroadcastsInDim S64x256x768 (![0, 1, 2] : Fin 3 → Fin S64x256x768.rank)
  shapeCasts_S64x256x768_S64x196608 : S64x256x768.ShapeCasts S64x196608
  dot_S64x256x2000_S2000x768_S64x256x768_2_0_01_1_n_n_wf : DotDims.WF S64x256x2000 S2000x768 S64x256x768 [2] [0] [0, 1] [1] [] []

variable [Facts₀]

def dot_S64x256x2000_S2000x768_S64x256x768_2_0_01_1_n_n : DotDims S64x256x2000 S2000x768 S64x256x768 where
  lhsContracting := [2]
  rhsContracting := [0]
  lhsNonContracting := [0, 1]
  rhsNonContracting := [1]
  lhsBatch := []
  rhsBatch := []
  wf := dot_S64x256x2000_S2000x768_S64x256x768_2_0_01_1_n_n_wf

class Facts : Prop extends Facts₀ where

variable [Facts]
-- ==== Proof.Pieces.lean ====
/-
  What one run of the kernel body leaves behind, case by case, as the body's own arithmetic applied to the blocks
  it was handed.

  The body keeps a running sum in a scratch buffer. At the first gene block of a tile it stores zero there, reads
  it back and stores the update; at every other block it reads what the block before left and stores the update;
  at the last block it also adds the bias column to the scratch just stored and writes the sum into the output
  block. Each buffer is covered by the one store that wrote it last, so what it holds is that store's value, the
  loads inside it reading the whole buffers they were issued on.
-/
import proofs.«112811_j30193620091140_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Body

open Cert.KernelIdeal Cert.KernelIdeal.Gen

variable {F : FTy → Type} [FloatOps F]

theorem zero3 : (![0, 0, 0] : Fin 3 → Nat) = fun _ => 0 := funext fun a => by fin_cases a <;> rfl
theorem zero2 : (![0, 0] : Fin 2 → Nat) = fun _ => 0 := funext fun a => by fin_cases a <;> rfl

/-- First gene block of a tile: the scratch ends at the update of the zero block. -/
theorem scratch_first (c : Dev nD) (i : grid0.Coords) (arg3 : Memref sig .tc .vmem S64x256 .f32) (harg3 : arg3.IsWhole) (arg4 : Memref sig .tc .vmem S128x256 .f32) (harg4 : arg4.IsWhole) (arg5 : Memref sig .tc .vmem S256x128 .f32) (harg5 : arg5.IsWhole) (arg6 : Memref sig .tc .vmem S128x1 .f32) (harg6 : arg6.IsWhole) (arg7 : Memref sig .tc .vmem S64x128x128 .f32) (harg7 : arg7.IsWhole) (arg8 : Memref sig .tc .vmem S64x128x128 .f32) (harg8 : arg8.IsWhole) (hc0 : cond0_0 i) (hc1 : ¬cond0_1 i)
    (x0 : Vec F S64x256 .f32) (x1 : Vec F S128x256 .f32) (x2 : Vec F S256x128 .f32) (x3 : Vec F S128x1 .f32) :
    sout0_A_0 c i arg3 harg3 arg4 harg4 arg5 harg5 arg6 harg6 arg7 harg7 arg8 harg8 hc0 hc1 x0 x1 x2 x3 = k0_pay2 x0 x1 x2 (k0_pay1 (F := F)) := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S64x128x128) zero3, View.readCov_unit_zero (S := S64x128x128) _ zero3]
  simp only [View.readAt_eq_ld, harg3.read_unread, harg4.read_unread, harg5.read_unread,
    View.ld_unit_zero (S := S64x256) zero2, View.ld_unit_zero (S := S128x256) zero2,
    View.ld_unit_zero (S := S256x128) zero2, View.ld_unit_zero (S := S64x128x128) zero3]

/-- A middle gene block: the scratch ends at the update of what the block before left. -/
theorem scratch_middle (c : Dev nD) (i : grid0.Coords) (arg3 : Memref sig .tc .vmem S64x256 .f32) (harg3 : arg3.IsWhole) (arg4 : Memref sig .tc .vmem S128x256 .f32) (harg4 : arg4.IsWhole) (arg5 : Memref sig .tc .vmem S256x128 .f32) (harg5 : arg5.IsWhole) (arg6 : Memref sig .tc .vmem S128x1 .f32) (harg6 : arg6.IsWhole) (arg7 : Memref sig .tc .vmem S64x128x128 .f32) (harg7 : arg7.IsWhole) (arg8 : Memref sig .tc .vmem S64x128x128 .f32) (harg8 : arg8.IsWhole) (hc0 : ¬cond0_0 i) (hc1 : ¬cond0_1 i)
    (x0 : Vec F S64x256 .f32) (x1 : Vec F S128x256 .f32) (x2 : Vec F S256x128 .f32) (x3 : Vec F S128x1 .f32) (xs0 : Vec F S64x128x128 .f32) :
    sout0_B_0 c i arg3 harg3 arg4 harg4 arg5 harg5 arg6 harg6 arg7 harg7 arg8 harg8 hc0 hc1 x0 x1 x2 x3 xs0 = k0_pay2 x0 x1 x2 xs0 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  sl_unfold_words
  rw [View.canon_unit_zero zero3]
  simp only [View.readAt_eq_ld, harg3.read_unread, harg4.read_unread, harg5.read_unread, harg8.read_unread,
    View.ld_unit_zero (S := S64x256) zero2, View.ld_unit_zero (S := S128x256) zero2,
    View.ld_unit_zero (S := S256x128) zero2, View.ld_unit_zero (S := S64x128x128) zero3]

/-- The last gene block: the scratch ends at the update of what the block before left, -/
theorem scratch_last (c : Dev nD) (i : grid0.Coords) (arg3 : Memref sig .tc .vmem S64x256 .f32) (harg3 : arg3.IsWhole) (arg4 : Memref sig .tc .vmem S128x256 .f32) (harg4 : arg4.IsWhole) (arg5 : Memref sig .tc .vmem S256x128 .f32) (harg5 : arg5.IsWhole) (arg6 : Memref sig .tc .vmem S128x1 .f32) (harg6 : arg6.IsWhole) (arg7 : Memref sig .tc .vmem S64x128x128 .f32) (harg7 : arg7.IsWhole) (arg8 : Memref sig .tc .vmem S64x128x128 .f32) (harg8 : arg8.IsWhole) (hc0 : ¬cond0_0 i) (hc1 : cond0_1 i)
    (x0 : Vec F S64x256 .f32) (x1 : Vec F S128x256 .f32) (x2 : Vec F S256x128 .f32) (x3 : Vec F S128x1 .f32) (xs0 : Vec F S64x128x128 .f32) :
    sout0_C_0 c i arg3 harg3 arg4 harg4 arg5 harg5 arg6 harg6 arg7 harg7 arg8 harg8 hc0 hc1 x0 x1 x2 x3 xs0 = k0_pay2 x0 x1 x2 xs0 := by
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  rw [View.canon_unit_zero zero3]
  simp only [View.readAt_eq_ld, harg3.read_unread, harg4.read_unread, harg5.read_unread, harg8.read_unread,
    View.ld_unit_zero (S := S64x256) zero2, View.ld_unit_zero (S := S128x256) zero2,
    View.ld_unit_zero (S := S256x128) zero2, View.ld_unit_zero (S := S64x128x128) zero3]

/-- and the output block at that update plus the bias column. -/
theorem out_last (c : Dev nD) (i : grid0.Coords) (arg3 : Memref sig .tc .vmem S64x256 .f32) (harg3 : arg3.IsWhole) (arg4 : Memref sig .tc .vmem S128x256 .f32) (harg4 : arg4.IsWhole) (arg5 : Memref sig .tc .vmem S256x128 .f32) (harg5 : arg5.IsWhole) (arg6 : Memref sig .tc .vmem S128x1 .f32) (harg6 : arg6.IsWhole) (arg7 : Memref sig .tc .vmem S64x128x128 .f32) (harg7 : arg7.IsWhole) (arg8 : Memref sig .tc .vmem S64x128x128 .f32) (harg8 : arg8.IsWhole) (hc0 : ¬cond0_0 i) (hc1 : cond0_1 i)
    (x0 : Vec F S64x256 .f32) (x1 : Vec F S128x256 .f32) (x2 : Vec F S256x128 .f32) (x3 : Vec F S128x1 .f32) (xs0 : Vec F S64x128x128 .f32) :
    out0_C_4 c i arg3 harg3 arg4 harg4 arg5 harg5 arg6 harg6 arg7 harg7 arg8 harg8 hc0 hc1 x0 x1 x2 x3 xs0 = k0_pay3 x3 (k0_pay2 x0 x1 x2 xs0) := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero zero3]
  simp only [View.readCov_unit_zero (S := S64x128x128) _ zero3, View.readAt_eq_ld, harg3.read_unread, harg4.read_unread,
    harg5.read_unread, harg6.read_unread, harg8.read_unread,
    View.ld_unit_zero (S := S64x256) zero2, View.ld_unit_zero (S := S128x256) zero2,
    View.ld_unit_zero (S := S256x128) zero2, View.ld_unit_zero (S := S128x1) zero2, View.ld_unit_zero (S := S64x128x128) zero3]

end Cert.KernelIdeal.Body

end
-- ==== Proof.LibUnitAxes.lean ====
/-
  Unit axes put into an array and spread out again, read at an index (general in the sizes and the element type).

  A matrix `[a, c]` recast as `[a, 1, c]` and broadcast to `[a, b, c]` repeats each row along the new middle axis:
  the entry `(i, j, k)` is the matrix's `(i, k)`. A matrix `[b, c]` recast as `[1, b, c]` and broadcast to
  `[a, b, c]` repeats the whole matrix along the new leading axis: the entry `(i, j, k)` is the matrix's `(j, k)`.
  A column `[b, 1]` recast as `[1, b, 1]` and broadcast to `[a, b, c]` gives every entry `(i, j, k)` the column's
  value at row `j`. A recast moves no element (equal row-major positions); a broadcast reads position `0` on each
  unit axis of its operand.
-/
import Idealize.ShloMosaic.Lib.ValueIdx
import Idealize.ShloMosaic.Lib.Pipeline.Value

noncomputable section

namespace Cert.Lib.UnitAxes

open Idealize.ShloMosaic Idealize.ShloMosaic.ValueIdx

variable {α : Type} {a b c : ℕ}

/-- `[a, c]` recast as `[a, 1, c]`, at `(i, u, k)`: the matrix at `(i, k)`. -/
theorem insertMiddle_apply (x : (⟨2, ![a, c]⟩ : Shape).Idx → α) (h : (⟨2, ![a, c]⟩ : Shape).ShapeCasts ⟨3, ![a, 1, c]⟩)
    (i : Fin a) (u : Fin 1) (k : Fin c) : shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- `[a, 1, c]` broadcast to `[a, b, c]`, at `(i, j, k)`: the operand at `(i, 0, k)`. -/
theorem spreadMiddle_apply (x : (⟨3, ![a, 1, c]⟩ : Shape).Idx → α) (h : (⟨3, ![a, 1, c]⟩ : Shape).Broadcasts ⟨3, ![a, b, c]⟩)
    (i : Fin a) (j : Fin b) (k : Fin c) : broadcastTo ⟨3, ![a, b, c]⟩ x h (ix3 i j k) = x (ix3 i (0 : Fin 1) k) := by
  refine broadcastTo_apply x h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- `[1, b, c]` broadcast to `[a, b, c]`, at `(i, j, k)`: the operand at `(0, j, k)`. -/
theorem spreadLeading_apply (x : (⟨3, ![1, b, c]⟩ : Shape).Idx → α) (h : (⟨3, ![1, b, c]⟩ : Shape).Broadcasts ⟨3, ![a, b, c]⟩)
    (i : Fin a) (j : Fin b) (k : Fin c) : broadcastTo ⟨3, ![a, b, c]⟩ x h (ix3 i j k) = x (ix3 (0 : Fin 1) j k) := by
  refine broadcastTo_apply x h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- `[1, b, 1]` broadcast to `[a, b, c]`, at `(i, j, k)`: the operand at `(0, j, 0)`. -/
theorem spreadColumn_apply (x : (⟨3, ![1, b, 1]⟩ : Shape).Idx → α) (h : (⟨3, ![1, b, 1]⟩ : Shape).Broadcasts ⟨3, ![a, b, c]⟩)
    (i : Fin a) (j : Fin b) (k : Fin c) : broadcastTo ⟨3, ![a, b, c]⟩ x h (ix3 i j k) = x (ix3 (0 : Fin 1) j (0 : Fin 1)) := by
  refine broadcastTo_apply x h (ix3 i j k) (ix3 (0 : Fin 1) j (0 : Fin 1)) fun ax => ?_
  match ax with
  | ⟨0, _⟩ => rfl
  | ⟨1, _⟩ =>
    show j.val = if b = 1 then 0 else j.val
    split
    · have := j.isLt; omega
    · rfl
  | ⟨2, _⟩ => rfl

end Cert.Lib.UnitAxes

end
-- ==== Proof.LibMergeLeading.lean ====
/-
  Merging the two leading axes of a rank-3 array, and splitting them again, read at an index (general in the sizes).

  A reshape `[a, b, c] → [a * b, c]` keeps every entry at its row-major position, so the entry at row `p * b + q`
  and column `r` of the result is the operand's entry `(p, q, r)` (`merge_apply`); the reshape back
  `[a * b, c] → [a, b, c]` reads entry `(p, q, r)` from row `p * b + q`, column `r` (`split_apply`). The merged
  row is `mergedRow`. This is what flattening a batch of matrices into one tall matrix, and unflattening the result,
  print.
-/
import Idealize.ShloMosaic.Lib.ValueIdx
import Idealize.ShloMosaic.Lib.Pipeline.Value

namespace Cert.Lib.MergeLeading

open Idealize.ShloMosaic Idealize.ShloMosaic.ValueIdx

variable {a b c n : ℕ} {α : Type}

/-- Row `p * b + q` of the merged array. -/
def mergedRow (hn : n = a * b) (p : Fin a) (q : Fin b) : Fin n :=
  ⟨p.val * b + q.val, by
    subst hn
    calc p.val * b + q.val < p.val * b + b := Nat.add_lt_add_left q.isLt _
      _ = (p.val + 1) * b := (Nat.succ_mul _ _).symm
      _ ≤ a * b := Nat.mul_le_mul_right _ p.isLt⟩

@[simp] theorem mergedRow_val (hn : n = a * b) (p : Fin a) (q : Fin b) : (mergedRow hn p q).val = p.val * b + q.val := rfl

/-- The merged array at row `p * b + q`, column `r`, is the operand at `(p, q, r)`. -/
theorem merge_apply (hn : n = a * b) (x : (⟨3, ![a, b, c]⟩ : Shape).Idx → α)
    (h : (⟨3, ![a, b, c]⟩ : Shape).ShapeCasts (⟨2, ![n, c]⟩ : Shape)) (p : Fin a) (q : Fin b) (r : Fin c) :
    shapeCast (⟨2, ![n, c]⟩ : Shape) x h (ix2 (mergedRow hn p q) r) = x (ix3 p q r) := by
  refine shapeCast_apply x h _ _ ?_
  rw [Shape.rowMajor_val_three, Shape.rowMajor_val_two]
  rfl

/-- The split array at `(p, q, r)` is the operand at row `p * b + q`, column `r`. -/
theorem split_apply (hn : n = a * b) (y : (⟨2, ![n, c]⟩ : Shape).Idx → α)
    (h : (⟨2, ![n, c]⟩ : Shape).ShapeCasts (⟨3, ![a, b, c]⟩ : Shape)) (p : Fin a) (q : Fin b) (r : Fin c) :
    shapeCast (⟨3, ![a, b, c]⟩ : Shape) y h (ix3 p q r) = y (ix2 (mergedRow hn p q) r) := by
  refine shapeCast_apply y h _ _ ?_
  rw [Shape.rowMajor_val_three, Shape.rowMajor_val_two]
  rfl

end Cert.Lib.MergeLeading
-- ==== Proof.LibPlainDot.lean ====
/-
  A matrix product with the plain dimension numbers, read at an entry (general in the sizes).

  For a left operand `[R, K]`, a right operand `[K, N]` and a result `[R, N]`, when the left operand contracts
  its second axis, the right one its first, neither has a batch axis, and the result's axes are the left
  operand's rows then the right operand's columns, the sum over the contraction index at the entry `(p, q)` is
  the sum over `k : Fin K` of `l (p, k) * r (k, q)`. Stated once for any such record of dimension numbers, it
  reads a kernel's matrix product into a zero accumulator and a host's general dot product the same way.
-/
import Idealize.ShloMosaic.Lib.ValueIdx
import Idealize.ShloMosaic.PureOps.Ideal.Laws

open scoped BigOperators

namespace Idealize.ShloMosaic.PlainDot

open Idealize.ShloMosaic Idealize.ShloMosaic.ValueIdx

variable {R K N : ℕ}

/-- The dimension numbers of `[R, K] · [K, N] → [R, N]`: one contracted axis each (the left operand's columns, the
    right operand's rows), no batch axes, rows before columns in the result. -/
structure IsPlain (d : DotDims (⟨2, ![R, K]⟩ : Shape) (⟨2, ![K, N]⟩ : Shape) (⟨2, ![R, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![R, K]⟩ : Shape) (⟨2, ![K, N]⟩ : Shape) (⟨2, ![R, N]⟩ : Shape)}

private theorem coord_congr {s : Shape} (j : s.Idx) (a b : ℕ) (ha : a < s.rank) (hb : b < s.rank) (h : a = b) :
    (j ⟨a, ha⟩).val = (j ⟨b, hb⟩).val := by subst h; rfl

/-- The left operand's row is the result's row. -/
theorem lhs_row (h : IsPlain d) (j : (⟨2, ![R, N]⟩ : Shape).Idx) (k : d.contr.Idx) :
    (d.lhsIdx j k (0 : Fin 2)).val = (j (0 : Fin 2)).val := by
  have hb : (0 : Fin 2) ∉ d.lhsBatch := by rw [h.lb]; exact List.not_mem_nil
  have hn : (0 : Fin 2) ∈ d.lhsNonContracting := by rw [h.ln]; exact List.mem_singleton.mpr rfl
  unfold DotDims.lhsIdx
  rw [dif_neg hb, dif_pos hn]
  simp only [Fin.val_cast]
  exact coord_congr j _ _ _ _ (by simp [h.lb, h.ln])

/-- The left operand's column is the contraction coordinate. -/
theorem lhs_col (h : IsPlain d) (j : (⟨2, ![R, N]⟩ : Shape).Idx) (k : d.contr.Idx) :
    (d.lhsIdx j k (1 : Fin 2)).val = (k ⟨0, by rw [d.rank_contr, h.lc]; exact Nat.one_pos⟩).val :=
  d.lhsIdx_val_of_single h.lc j k

/-- The right operand's row is the contraction coordinate. -/
theorem rhs_row (h : IsPlain d) (j : (⟨2, ![R, N]⟩ : Shape).Idx) (k : d.contr.Idx) :
    (d.rhsIdx j k (0 : Fin 2)).val = (k ⟨0, by rw [d.rank_contr, ← d.length_contracting, h.rc]; exact Nat.one_pos⟩).val :=
  d.rhsIdx_val_of_single h.rc j k

/-- The right operand's column is the result's column. -/
theorem rhs_col (h : IsPlain d) (j : (⟨2, ![R, N]⟩ : Shape).Idx) (k : d.contr.Idx) :
    (d.rhsIdx j k (1 : Fin 2)).val = (j (1 : Fin 2)).val := by
  have hb : (1 : Fin 2) ∉ d.rhsBatch := by rw [h.rb]; exact List.not_mem_nil
  have hn : (1 : Fin 2) ∈ d.rhsNonContracting := by rw [h.rn]; exact List.mem_singleton.mpr rfl
  unfold DotDims.rhsIdx
  rw [dif_neg hb, dif_pos hn]
  simp only [Fin.val_cast]
  exact coord_congr j _ _ _ _ (by simp [h.lb, h.ln, h.rn])

theorem contr_rank (h : IsPlain d) : d.contr.rank = 1 := by rw [d.rank_contr, h.lc]; rfl

theorem contr_size (h : IsPlain d) : d.contr.size ⟨0, by rw [contr_rank h]; exact Nat.one_pos⟩ = K := by
  rw [d.size_contr 0 (by rw [h.lc]; exact Nat.one_pos)]
  simp [h.lc]

/-- The contraction sum at the entry `(p, q)`, over the one contracted coordinate. -/
theorem sum_contr (h : IsPlain d) (l : (⟨2, ![R, K]⟩ : Shape).Idx → EReal) (r : (⟨2, ![K, N]⟩ : Shape).Idx → EReal)
    (p : Fin R) (q : Fin N) :
    ∑ k : d.contr.Idx, l (d.lhsIdx (ix2 p q) k) * r (d.rhsIdx (ix2 p q) k) = ∑ k : Fin K, l (ix2 p k) * r (ix2 k q) := by
  rw [← Equiv.sum_comp (contrEquiv1 d K (contr_rank h) (contr_size h)).symm]
  refine Finset.sum_congr rfl fun k _ => ?_
  have hl : d.lhsIdx (ix2 p q) ((contrEquiv1 d K (contr_rank h) (contr_size h)).symm k) = ix2 p k := by
    funext a
    refine Fin.ext ?_
    match a with
    | ⟨0, _⟩ => exact lhs_row h _ _
    | ⟨1, _⟩ => exact (lhs_col h _ _).trans (contrEquiv1_symm_val d K (contr_rank h) (contr_size h) k)
  have hr : d.rhsIdx (ix2 p q) ((contrEquiv1 d K (contr_rank h) (contr_size h)).symm k) = ix2 k q := by
    funext a
    refine Fin.ext ?_
    match a with
    | ⟨0, _⟩ => exact (rhs_row h _ _).trans (contrEquiv1_symm_val d K (contr_rank h) (contr_size h) k)
    | ⟨1, _⟩ => exact rhs_col h _ _
  rw [hl, hr]

/-- A kernel's matrix product into the zero accumulator, at the ideal values, read at `(p, q)`. -/
theorem matmul_zero_apply (h : IsPlain d) (prec : Option ContractPrecision)
    (l : FVec Ideal (⟨2, ![R, K]⟩ : Shape) .f32) (r : FVec Ideal (⟨2, ![K, N]⟩ : Shape) .f32) (p : Fin R) (q : Fin N) :
    FloatOps.matmul d prec l r (constant (⟨2, ![R, N]⟩ : Shape) .f32 0x00000000#32) (ix2 p q)
      = ∑ k : Fin K, l (ix2 p k) * r (ix2 k q) :=
  (Ideal.matmul_constant_zero_apply d prec l r (ix2 p q)).trans (sum_contr h l r p q)

/-- A host's general dot product, at the ideal values, read at `(p, q)`. -/
theorem dotGeneral_apply (h : IsPlain d) (prec : Option ContractPrecision) (sched : HostSchedule)
    (l : FVec Ideal (⟨2, ![R, K]⟩ : Shape) .f32) (r : FVec Ideal (⟨2, ![K, N]⟩ : Shape) .f32) (p : Fin R) (q : Fin N) :
    FloatOps.dotGeneral d prec sched l r (ix2 p q) = ∑ k : Fin K, l (ix2 p k) * r (ix2 k q) :=
  (Ideal.dotGeneral_apply d prec sched l r (ix2 p q)).trans (sum_contr h l r p q)

end Idealize.ShloMosaic.PlainDot
-- ==== Proof.Payload.lean ====
/-
  The body's arithmetic read at one entry, over the extended reals.

  The update of the running sum: with `x` the block of the padded input (64 rows, 256 genes), `w` the block of the
  padded masked weights (128 pathways, 256 genes), `t` the block of the padded embedding table (256 genes, 128
  coordinates) and `acc` what the scratch held, the entry `(b, p, q)` of the new scratch is
      acc(b, p, q) + sum over the 256 genes j of (x(b, j) * w(p, j)) * t(j, q).
  The body gets there by spreading `x` along a new pathway axis and `w` along a new batch axis, multiplying entry by
  entry, flattening batch and pathway into one axis of 64 * 128 rows, multiplying that tall matrix with `t` into a
  zero accumulator, and unflattening: the row `b * 128 + p` of the product is the sum above. The changes of float
  format on the way are the identity here.

  The closing step adds the bias column: entry `(b, p, q)` of the output block is the scratch's plus the column's row `p`.
-/
import proofs.«112811_j30193620091140_1_alg».proof.Proof.Gen.KernelIdeal.Skeleton
import proofs.«112811_j30193620091140_1_alg».proof.Proof.LibUnitAxes
import proofs.«112811_j30193620091140_1_alg».proof.Proof.LibMergeLeading
import proofs.«112811_j30193620091140_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

open scoped BigOperators

noncomputable section

open Idealize.ShloMosaic Idealize.ShloMosaic.TcCoe Idealize.ShloMosaic.ValueIdx Idealize.SL.Sem

namespace Cert.KernelIdeal.Arith

open Cert.KernelIdeal Cert.KernelIdeal.Gen Cert.Lib

/-- The matrix product's dimension numbers are the plain ones: rows by columns, one contracted axis. -/
theorem plain : PlainDot.IsPlain (R := 8192) (K := 256) (N := 128) dot_S8192x256_S256x128_S8192x128_1_0_0_1_n_n :=
  ⟨rfl, rfl, rfl, rfl, rfl, rfl⟩

/-- The tall product into the zero accumulator, at row `r` and column `q`: the sum over the 256 genes. -/
theorem product_apply (l : FVec Idealize.ShloMosaic.Ideal S8192x256 .bf16) (r : FVec Idealize.ShloMosaic.Ideal S256x128 .bf16)
    (p : Fin 8192) (q : Fin 128) :
    matmul dot_S8192x256_S256x128_S8192x128_1_0_0_1_n_n none l r (constant S8192x128 .f32 0x00000000#32) (ix2 p q)
      = ∑ k : Fin 256, l (ix2 p k) * r (ix2 k q) :=
  (Ideal.matmul_constant_zero_apply _ none l r (ix2 p q)).trans (PlainDot.sum_contr plain l r p q)

/-- The update at the entry `(b, p, q)`. -/
theorem update_apply (x : Vec Ideal S64x256 .f32) (w : Vec Ideal S128x256 .f32) (t : Vec Ideal S256x128 .f32)
    (acc : Vec Ideal S64x128x128 .f32) (b : Fin 64) (p : Fin 128) (q : Fin 128) :
    k0_pay2 (F := Ideal) x w t acc (ix3 b p q)
      = acc (ix3 b p q) + ∑ j : Fin 256, (x (ix2 b j) * w (ix2 p j)) * t (ix2 j q) := by
  unfold k0_pay2
  rw [shapeCast_self, addf_apply]
  congr 1
  rw [MergeLeading.split_apply (a := 64) (b := 128) (c := 128) (n := 8192) rfl, product_apply]
  refine Finset.sum_congr rfl fun j _ => ?_
  rw [MergeLeading.merge_apply (a := 64) (b := 128) (c := 256) (n := 8192) rfl, truncf_apply, truncf_apply, mulf_apply,
    UnitAxes.spreadMiddle_apply, UnitAxes.insertMiddle_apply, UnitAxes.spreadLeading_apply, shapeCast_ab_1ab_apply,
    shapeCast_self, shapeCast_self, shapeCast_self]

/-- The block the reset stores is zero everywhere. -/
theorem zero_apply (i : S64x128x128.Idx) : (k0_pay1 (F := Ideal)) i = 0 := by
  unfold k0_pay1
  rw [shapeCast_self]
  exact Ideal.ofBits_zero_f32

/-- The closing step at the entry `(b, p, q)`: the scratch's entry plus the bias column's row `p`. -/
theorem bias_apply (col : Vec Ideal S128x1 .f32) (acc : Vec Ideal S64x128x128 .f32) (b : Fin 64) (p : Fin 128) (q : Fin 128) :
    k0_pay3 (F := Ideal) col acc (ix3 b p q) = acc (ix3 b p q) + col (ix2 p (0 : Fin 1)) := by
  unfold k0_pay3
  rw [addf_apply, UnitAxes.spreadColumn_apply, shapeCast_ab_1ab_apply, shapeCast_self]

end Cert.KernelIdeal.Arith

end
-- ==== Proof.Entry.lean ====
/-
  The four arrays the kernel region is entered with, as functions of the program's arguments.

  Before the region the program multiplies the weights by the transposed mask, pads the gene axis of the input, of
  that product and of the embedding table with zeros from 2000 to 2048 positions, and recasts the bias vector as a
  column. Read at an entry over the extended reals: inside the first 2000 genes a padded array is the array it was
  padded from; from position 2000 on it is the padding value, the integer 0 converted to a float, which is 0; the
  masked weight at `(p, d)` is `w(p, d) * mask(d, p)`; the column at row `p` is the bias at `p`.
-/
import proofs.«112811_j30193620091140_1_alg».proof.Proof.Gen.KernelIdeal.Frame
import Idealize.ShloMosaic.Lib.Pipeline.Value
import Idealize.ShloMosaic.Lib.StableHlo.Run
import Idealize.ShloMosaic.Lib.KernelVsHost
import Idealize.ShloMosaic.Lib.ValueIdx
import Idealize.ShloMosaic.Lib.ValueLayout
import Idealize.ShloMosaic.Lib.Tactic
import Idealize.ShloMosaic.PureOps.Ideal.Laws

noncomputable section

open Idealize.ShloMosaic Idealize.ShloMosaic.TcCoe Idealize.ShloMosaic.ValueIdx Idealize.SL.Sem

namespace Cert.KernelIdeal.Entry

open Cert.KernelIdeal Cert.KernelIdeal.Gen

section AnyValues

variable {F : FTy → Type} [FloatOps F]
variable (m : (ℓ : Loc nD τ sig) → Buf (Elt F) ℓ)

/-- The padded input, the padded masked weights, the padded embedding table and the bias column, as the region finds them. -/
abbrev xpad (c : Dev nD) : Vec F S64x2048 .f32 := V m c main_v2
abbrev wpad (c : Dev nD) : Vec F S256x2048 .f32 := V m c main_v3
abbrev tpad (c : Dev nD) : Vec F S2048x768 .f32 := V m c main_v4
abbrev bcol (c : Dev nD) : Vec F S256x1 .f32 := V m c main_v5

/-- The five argument arrays as the program was launched with them. -/
abbrev xarg (c : Dev nD) : Vec F S64x2000 .f32 := m ((c : Thread nD τ).loc main_arg0)
abbrev warg (c : Dev nD) : Vec F S256x2000 .f32 := m ((c : Thread nD τ).loc main_arg1)
abbrev barg (c : Dev nD) : Vec F S256 .f32 := m ((c : Thread nD τ).loc main_arg2)
abbrev marg (c : Dev nD) : Vec F S2000x256 .f32 := m ((c : Thread nD τ).loc main_arg3)
abbrev targ (c : Dev nD) : Vec F S2000x768 .f32 := m ((c : Thread nD τ).loc main_arg4)

/-- The padded input is the input padded. -/
theorem xpad_eq (c : Dev nD) :
    xpad m c = pad S64x2048 ![0, 0] ![0, 48] ![0, 0] (xarg m c)
      (sitofp .f32 (constantI S_ 32 0#32) : (⟨S_, .f32⟩ : BufTy).Contents (Elt F)) pads_S64x2000_S64x2048_000_0480 h_S_ := by
  show (V m c main_v2 : (⟨S64x2048, .f32⟩ : BufTy).Contents (Elt F)) = _
  dsimp only [V, V0]
  simp only [hostOps0, hostOps0_1, hostOps0_2, hostOps0_3, hostOps0_4, hostOps0_5, hostOps0_6, List.flatten_cons,
    List.flatten_nil, List.append_nil, List.cons_append, List.nil_append]
  after_results
  rfl

/-- The padded masked weights are the weights times the transposed mask, padded. -/
theorem wpad_eq (c : Dev nD) :
    wpad m c = pad S256x2048 ![0, 0] ![0, 48] ![0, 0] (mulf (warg m c) (transpose S256x2000 [1, 0] (marg m c) transposes_S2000x256_S256x2000_1_0))
      (sitofp .f32 (constantI S_ 32 0#32) : (⟨S_, .f32⟩ : BufTy).Contents (Elt F)) pads_S256x2000_S256x2048_000_0480 h_S_ := by
  show (V m c main_v3 : (⟨S256x2048, .f32⟩ : BufTy).Contents (Elt F)) = _
  dsimp only [V, V0]
  simp only [hostOps0, hostOps0_1, hostOps0_2, hostOps0_3, hostOps0_4, hostOps0_5, hostOps0_6, List.flatten_cons,
    List.flatten_nil, List.append_nil, List.cons_append, List.nil_append]
  after_results
  rfl

/-- The padded embedding table is the table padded. -/
theorem tpad_eq (c : Dev nD) :
    tpad m c = pad S2048x768 ![0, 0] ![48, 0] ![0, 0] (targ m c)
      (sitofp .f32 (constantI S_ 32 0#32) : (⟨S_, .f32⟩ : BufTy).Contents (Elt F)) pads_S2000x768_S2048x768_0480_000 h_S_ := by
  show (V m c main_v4 : (⟨S2048x768, .f32⟩ : BufTy).Contents (Elt F)) = _
  dsimp only [V, V0]
  simp only [hostOps0, hostOps0_1, hostOps0_2, hostOps0_3, hostOps0_4, hostOps0_5, hostOps0_6, List.flatten_cons,
    List.flatten_nil, List.append_nil, List.cons_append, List.nil_append]
  after_results
  rfl

/-- The bias column is the bias vector recast. -/
theorem bcol_eq (c : Dev nD) : bcol m c = shapeCast S256x1 (barg m c) shapeCasts_S256_S256x1 := by
  show (V m c main_v5 : (⟨S256x1, .f32⟩ : BufTy).Contents (Elt F)) = _
  dsimp only [V, V0]
  simp only [hostOps0, hostOps0_1, hostOps0_2, hostOps0_3, hostOps0_4, hostOps0_5, hostOps0_6, List.flatten_cons,
    List.flatten_nil, List.append_nil, List.cons_append, List.nil_append]
  after_results
  rfl

end AnyValues

section AtReals

variable (m : (ℓ : Loc nD τ sig) → Buf (Elt Ideal) ℓ)

/-- The padding value: the integer 0 as a float is 0. -/
theorem padValue : (sitofp (F := Ideal) .f32 (constantI S_ 32 0#32)) (Shape.Idx.first h_S_) = 0 := by
  show (((0#32 : BitVec 32).toInt : ℝ) : EReal) = 0
  simp

theorem xpad_in (c : Dev nD) (b : Fin 64) (d : Fin 2000) :
    xpad m c (ix2 b (Fin.castLE (by decide) d)) = xarg m c (ix2 b d) := by
  rw [xpad_eq]
  refine pad_apply_of_inside _ _ _ _ _ _ _ _ (ix2 b d) fun a => ?_
  match a with
  | ⟨0, _⟩ => show b.val = 0 + b.val * (0 + 1); omega
  | ⟨1, _⟩ => show d.val = 0 + d.val * (0 + 1); omega

theorem xpad_out (c : Dev nD) (b : Fin 64) (f : Fin 2048) (hf : 2000 ≤ f.val) : xpad m c (ix2 b f) = 0 := by
  rw [xpad_eq, pad_apply_of_not_inside _ _ _ _ _ _ _ _ (1 : Fin 2) (by
    show ¬(0 ≤ f.val ∧ (f.val - 0) % (0 + 1) = 0 ∧ (f.val - 0) / (0 + 1) < 2000); omega)]
  exact padValue

theorem wpad_in (c : Dev nD) (p : Fin 256) (d : Fin 2000) :
    wpad m c (ix2 p (Fin.castLE (by decide) d))
      = warg m c (ix2 p d) * marg m c (ix2 d p) := by
  rw [wpad_eq]
  refine (pad_apply_of_inside _ _ _ _ _ _ _ _ (ix2 p d) fun a => ?_).trans ?_
  · match a with
    | ⟨0, _⟩ => show p.val = 0 + p.val * (0 + 1); omega
    | ⟨1, _⟩ => show d.val = 0 + d.val * (0 + 1); omega
  · rw [mulf_apply, transpose_ix2_apply]

theorem wpad_out (c : Dev nD) (p : Fin 256) (f : Fin 2048) (hf : 2000 ≤ f.val) : wpad m c (ix2 p f) = 0 := by
  rw [wpad_eq, pad_apply_of_not_inside _ _ _ _ _ _ _ _ (1 : Fin 2) (by
    show ¬(0 ≤ f.val ∧ (f.val - 0) % (0 + 1) = 0 ∧ (f.val - 0) / (0 + 1) < 2000); omega)]
  exact padValue

theorem tpad_in (c : Dev nD) (d : Fin 2000) (e : Fin 768) :
    tpad m c (ix2 (Fin.castLE (by decide) d) e) = targ m c (ix2 d e) := by
  rw [tpad_eq]
  refine pad_apply_of_inside _ _ _ _ _ _ _ _ (ix2 d e) fun a => ?_
  match a with
  | ⟨0, _⟩ => show d.val = 0 + d.val * (0 + 1); omega
  | ⟨1, _⟩ => show e.val = 0 + e.val * (0 + 1); omega

theorem tpad_out (c : Dev nD) (f : Fin 2048) (e : Fin 768) (hf : 2000 ≤ f.val) : tpad m c (ix2 f e) = 0 := by
  rw [tpad_eq, pad_apply_of_not_inside _ _ _ _ _ _ _ _ (0 : Fin 2) (by
    show ¬(0 ≤ f.val ∧ (f.val - 0) % (0 + 1) = 0 ∧ (f.val - 0) / (0 + 1) < 2000); omega)]
  exact padValue

theorem bcol_apply (c : Dev nD) (p : Fin 256) (u : Fin 1) :
    bcol m c (ix2 p u) = barg m c (ix1 p) := by
  rw [bcol_eq]
  refine shapeCast_apply (barg m c) shapeCasts_S256_S256x1 (ix2 p u) (ix1 p) ?_
  have hu : u.val = 0 := by omega
  rw [Shape.rowMajor_val_one, Shape.rowMajor_val_two]
  show p.val = p.val * 1 + u.val
  omega

end AtReals

end Cert.KernelIdeal.Entry

end
-- ==== Proof.LibPadSum.lean ====
/-
  A finite sum whose summands vanish past a position.

  If a function on `N` positions is zero at every position `n` and beyond, its sum is the sum of its first `n`
  values: the positions split into the first `n` and the remaining `N - n`, and the second group contributes
  nothing. Stated in any commutative additive monoid and for any sizes; on the extended reals it needs no finiteness,
  since only the neutral element is added. This is what a contraction over a zero-padded axis is worth.
-/
import Mathlib.Algebra.BigOperators.Fin

open scoped BigOperators

namespace Cert.Lib.PadSum

variable {M : Type*} [AddCommMonoid M]

/-- The sum over `N` positions of a function that is zero from position `n` on is its sum over the first `n`. -/
theorem sum_of_zero_tail {n N : ℕ} (h : n ≤ N) (T : Fin N → M) (hz : ∀ f : Fin N, n ≤ f.val → T f = 0) :
    ∑ f, T f = ∑ d : Fin n, T (Fin.castLE h d) := by
  obtain ⟨k, rfl⟩ := Nat.exists_eq_add_of_le h
  rw [Fin.sum_univ_add]
  have h2 : ∑ i : Fin k, T (Fin.natAdd n i) = 0 :=
    Finset.sum_eq_zero fun i _ => hz _ (by simp [Fin.natAdd])
  rw [h2, add_zero]
  rfl

end Cert.Lib.PadSum
-- ==== Proof.LibBlockSum.lean ====
/-
  A finite sum taken block by block.

  `N = a * b` positions are cut into `a` consecutive blocks of `b` positions each: position `q` of block `t` is
  position `t * b + q` (`blockRow`). In any commutative additive monoid the sum of a function over all `N` positions is
  the sum, over the blocks, of its sums over each block's positions (`sum_fin_blocks`): the bijection
  `Fin a × Fin b ≃ Fin (a * b)`, `(t, q) ↦ q + b * t`. Applied twice it cuts the rows of a row-major matrix into row
  blocks and each row into its entries. Nothing is asked of the summands: on the extended reals, whose addition is
  commutative and associative at the infinities too, this re-groups a sum of any values. Generic in the sizes and in the
  monoid. Last, a reshape re-arranges a vector's entries bijectively, so it does not change their sum (`sum_shapeCast`).
-/
import Idealize.ShloMosaic.Lib.ValueIdx
import Mathlib.Algebra.BigOperators.Fin
import Mathlib.Logic.Equiv.Fin.Basic

open scoped BigOperators

namespace Cert.Lib.BlockSum

open Idealize.ShloMosaic Idealize.ShloMosaic.ValueIdx

/-- Row `q` of row block `t`, among the `N = a * b` rows: row `t * b + q`. -/
def blockRow {N a b : ℕ} (hN : N = a * b) (t : Fin a) (q : Fin b) : Fin N :=
  ⟨t.val * b + q.val, by
    subst hN
    calc t.val * b + q.val < t.val * b + b := Nat.add_lt_add_left q.isLt _
      _ = (t.val + 1) * b := (Nat.succ_mul _ _).symm
      _ ≤ a * b := Nat.mul_le_mul_right _ t.isLt⟩

@[simp] theorem blockRow_val {N a b : ℕ} (hN : N = a * b) (t : Fin a) (q : Fin b) :
    (blockRow hN t q).val = t.val * b + q.val := rfl

/-- A sum over `a * b` positions is the sum over the `a` blocks of the sums over each block's `b` positions. -/
theorem sum_fin_blocks {M : Type*} [AddCommMonoid M] {N a b : ℕ} (hN : N = a * b) (f : Fin N → M) :
    ∑ r, f r = ∑ t : Fin a, ∑ q : Fin b, f (blockRow hN t q) := by
  subst hN
  rw [← Equiv.sum_comp finProdFinEquiv f, Fintype.sum_prod_type]
  refine Finset.sum_congr rfl fun t _ => Finset.sum_congr rfl fun q _ => congrArg f (Fin.ext ?_)
  show q.val + b * t.val = t.val * b + q.val
  rw [Nat.mul_comm, Nat.add_comm]

/-- A reshape only re-arranges: the sum over a reshaped vector's entries is the sum over the vector's entries (each entry of
    the result is the operand's entry at the same row-major position, a bijection of the two index sets). -/
theorem sum_shapeCast {M : Type} [AddCommMonoid M] {s t : Shape} (x : s.Idx → M) (h : s.ShapeCasts t) :
    ∑ j, shapeCast t x h j = ∑ k, x k := by
  unfold shapeCast
  exact Equiv.sum_comp (Shape.reshapeEquiv h) x

end Cert.Lib.BlockSum
-- ==== Proof.LibPartialSum.lean ====
/-
  Partial sums over the first positions of a finite range.

  `upto n k` is the set of positions `b : Fin n` with `b ≤ k`. In any commutative additive monoid the sum over
  `upto n 0` is the summand at position `0`, passing from `k` to `k + 1` adds the summand at position `k + 1`, and
  once `k` reaches the last position the sum is the sum over all positions. This is what an accumulator that adds one
  term per step holds after each step, stated without reference to any order of evaluation.
-/
import Mathlib.Algebra.BigOperators.Fin

open scoped BigOperators

namespace Cert.Lib.PartialSum

variable {M : Type*} [AddCommMonoid M] {n : ℕ}

/-- The positions up to and including `k`. -/
def upto (n k : ℕ) : Finset (Fin n) := Finset.univ.filter fun b => b.val ≤ k

theorem mem_upto {k : ℕ} {b : Fin n} : b ∈ upto n k ↔ b.val ≤ k := by
  simp [upto]

/-- Up to position `0` there is one summand. -/
theorem sum_upto_zero (hn : 0 < n) (g : Fin n → M) : ∑ b ∈ upto n 0, g b = g ⟨0, hn⟩ := by
  have : upto n 0 = {⟨0, hn⟩} := by
    ext b
    rw [mem_upto, Finset.mem_singleton]
    exact ⟨fun h => Fin.ext (Nat.le_zero.mp h), fun h => by rw [h]⟩
  rw [this, Finset.sum_singleton]

/-- One more position adds its summand. -/
theorem sum_upto_succ (k : ℕ) (hk : k + 1 < n) (g : Fin n → M) :
    ∑ b ∈ upto n (k + 1), g b = ∑ b ∈ upto n k, g b + g ⟨k + 1, hk⟩ := by
  have hins : upto n (k + 1) = insert ⟨k + 1, hk⟩ (upto n k) := by
    ext b
    rw [Finset.mem_insert, mem_upto, mem_upto]
    constructor
    · intro h
      rcases Nat.lt_or_ge b.val (k + 1) with h' | h'
      · exact Or.inr (Nat.lt_succ_iff.mp h')
      · exact Or.inl (Fin.ext (Nat.le_antisymm h h'))
    · rintro (h | h)
      · rw [h]
      · exact Nat.le_succ_of_le h
  have hnot : (⟨k + 1, hk⟩ : Fin n) ∉ upto n k := by
    rw [mem_upto]; exact Nat.not_succ_le_self k
  rw [hins, Finset.sum_insert hnot, add_comm]

/-- Up to the last position the sum is the whole sum. -/
theorem sum_upto_last (k : ℕ) (hk : n ≤ k + 1) (g : Fin n → M) : ∑ b ∈ upto n k, g b = ∑ b, g b := by
  have : upto n k = Finset.univ := by
    ext b
    rw [mem_upto]
    exact ⟨fun _ => Finset.mem_univ _, fun _ => Nat.lt_succ_iff.mp (Nat.lt_of_lt_of_le b.isLt hk)⟩
  rw [this]

end Cert.Lib.PartialSum
-- ==== Proof.Spec.lean ====
/-
  What the program computes, as one function of its five argument arrays, and the law that joins the two ways of
  computing it.

  For a batch row `b`, a pathway `p` and an embedding coordinate `e` the result is
      out(b, p, e) = (sum over the 2000 genes d of (x(b,d) * (w(p,d) * mask(d,p))) * emb(d,e)) + bias(p),
  laid out with `p` and `e` merged into one axis of 256 * 768 columns.

  One side contracts over the 2000 genes directly. The other pads the gene axis of `x`, of the masked weights and of
  the embedding table with zeros to 2048, cuts it into 8 blocks of 256, and adds the blocks' partial sums one after the
  other. A padded summand is `(0 * 0) * 0 = 0`, so the padded sum is the sum over the genes; and a sum over 2048
  positions is the sum over the blocks of the sums inside each block. Both facts hold in any commutative additive
  monoid with the neutral element added, so on the extended reals they ask nothing of the inputs.
-/
import Idealize.ShloMosaic.Lib.ValueIdx
import Idealize.ShloMosaic.PureOps.Ideal
import proofs.«112811_j30193620091140_1_alg».proof.Proof.LibPadSum
import proofs.«112811_j30193620091140_1_alg».proof.Proof.LibBlockSum
import proofs.«112811_j30193620091140_1_alg».proof.Proof.LibPartialSum

open scoped BigOperators

noncomputable section

namespace Cert.Spec

open Idealize.ShloMosaic Idealize.ShloMosaic.ValueIdx

/-- One gene's contribution to the entry `(b, p, e)`. -/
def term (X : (⟨2, ![64, 2000]⟩ : Shape).Idx → EReal) (W : (⟨2, ![256, 2000]⟩ : Shape).Idx → EReal)
    (Mk : (⟨2, ![2000, 256]⟩ : Shape).Idx → EReal) (E : (⟨2, ![2000, 768]⟩ : Shape).Idx → EReal)
    (b : Fin 64) (p : Fin 256) (e : Fin 768) (d : Fin 2000) : EReal :=
  (X (ix2 b d) * (W (ix2 p d) * Mk (ix2 d p))) * E (ix2 d e)

/-- The entry `(b, p, e)`: the contraction over the genes, plus the pathway's bias. -/
def out3 (X : (⟨2, ![64, 2000]⟩ : Shape).Idx → EReal) (W : (⟨2, ![256, 2000]⟩ : Shape).Idx → EReal)
    (Bi : (⟨1, ![256]⟩ : Shape).Idx → EReal)
    (Mk : (⟨2, ![2000, 256]⟩ : Shape).Idx → EReal) (E : (⟨2, ![2000, 768]⟩ : Shape).Idx → EReal)
    (b : Fin 64) (p : Fin 256) (e : Fin 768) : EReal :=
  (∑ d : Fin 2000, term X W Mk E b p e d) + Bi (ix1 p)

/-- The result before its last two axes are merged. -/
def cube (X : (⟨2, ![64, 2000]⟩ : Shape).Idx → EReal) (W : (⟨2, ![256, 2000]⟩ : Shape).Idx → EReal)
    (Bi : (⟨1, ![256]⟩ : Shape).Idx → EReal)
    (Mk : (⟨2, ![2000, 256]⟩ : Shape).Idx → EReal) (E : (⟨2, ![2000, 768]⟩ : Shape).Idx → EReal) :
    (⟨3, ![64, 256, 768]⟩ : Shape).Idx → EReal :=
  fun i => out3 X W Bi Mk E ⟨(i 0).val, (i 0).isLt⟩ ⟨(i 1).val, (i 1).isLt⟩ ⟨(i 2).val, (i 2).isLt⟩

theorem cube_apply (X : (⟨2, ![64, 2000]⟩ : Shape).Idx → EReal) (W : (⟨2, ![256, 2000]⟩ : Shape).Idx → EReal)
    (Bi : (⟨1, ![256]⟩ : Shape).Idx → EReal)
    (Mk : (⟨2, ![2000, 256]⟩ : Shape).Idx → EReal) (E : (⟨2, ![2000, 768]⟩ : Shape).Idx → EReal)
    (b : Fin 64) (p : Fin 256) (e : Fin 768) : cube X W Bi Mk E (ix3 b p e) = out3 X W Bi Mk E b p e := rfl

/-- The result: the cube with pathway and embedding coordinate merged into one axis. -/
def result (h : (⟨3, ![64, 256, 768]⟩ : Shape).ShapeCasts (⟨2, ![64, 196608]⟩ : Shape))
    (X : (⟨2, ![64, 2000]⟩ : Shape).Idx → EReal) (W : (⟨2, ![256, 2000]⟩ : Shape).Idx → EReal)
    (Bi : (⟨1, ![256]⟩ : Shape).Idx → EReal)
    (Mk : (⟨2, ![2000, 256]⟩ : Shape).Idx → EReal) (E : (⟨2, ![2000, 768]⟩ : Shape).Idx → EReal) :
    (⟨2, ![64, 196608]⟩ : Shape).Idx → EReal :=
  shapeCast (⟨2, ![64, 196608]⟩ : Shape) (cube X W Bi Mk E) h

/-! ## The padded, blocked contraction -/

/-- Position `j` of block `k` on the padded gene axis. -/
abbrev gene (k : Fin 8) (j : Fin 256) : Fin 2048 := Cert.Lib.BlockSum.blockRow (show 2048 = 8 * 256 from rfl) k j

/-- One padded position's contribution, from the padded arrays. -/
def pterm (Xp : (⟨2, ![64, 2048]⟩ : Shape).Idx → EReal) (Wp : (⟨2, ![256, 2048]⟩ : Shape).Idx → EReal)
    (Ep : (⟨2, ![2048, 768]⟩ : Shape).Idx → EReal) (b : Fin 64) (p : Fin 256) (e : Fin 768) (f : Fin 2048) : EReal :=
  (Xp (ix2 b f) * Wp (ix2 p f)) * Ep (ix2 f e)

/-- Block `k`'s partial sum. -/
def part (Xp : (⟨2, ![64, 2048]⟩ : Shape).Idx → EReal) (Wp : (⟨2, ![256, 2048]⟩ : Shape).Idx → EReal)
    (Ep : (⟨2, ![2048, 768]⟩ : Shape).Idx → EReal) (b : Fin 64) (p : Fin 256) (e : Fin 768) (k : Fin 8) : EReal :=
  ∑ j : Fin 256, pterm Xp Wp Ep b p e (gene k j)

/-- The blocks' partial sums add up to the sum over the padded axis. -/
theorem sum_part (Xp : (⟨2, ![64, 2048]⟩ : Shape).Idx → EReal) (Wp : (⟨2, ![256, 2048]⟩ : Shape).Idx → EReal)
    (Ep : (⟨2, ![2048, 768]⟩ : Shape).Idx → EReal) (b : Fin 64) (p : Fin 256) (e : Fin 768) :
    ∑ k : Fin 8, part Xp Wp Ep b p e k = ∑ f : Fin 2048, pterm Xp Wp Ep b p e f :=
  (Cert.Lib.BlockSum.sum_fin_blocks (show 2048 = 8 * 256 from rfl) (pterm Xp Wp Ep b p e)).symm

/-- The running sum after the blocks `0 … n`. -/
def running (Xp : (⟨2, ![64, 2048]⟩ : Shape).Idx → EReal) (Wp : (⟨2, ![256, 2048]⟩ : Shape).Idx → EReal)
    (Ep : (⟨2, ![2048, 768]⟩ : Shape).Idx → EReal) (b : Fin 64) (p : Fin 256) (e : Fin 768) (n : ℕ) : EReal :=
  ∑ k ∈ Cert.Lib.PartialSum.upto 8 n, part Xp Wp Ep b p e k

/-- After the first block it is that block's partial sum; -/
theorem running_zero (Xp : (⟨2, ![64, 2048]⟩ : Shape).Idx → EReal) (Wp : (⟨2, ![256, 2048]⟩ : Shape).Idx → EReal)
    (Ep : (⟨2, ![2048, 768]⟩ : Shape).Idx → EReal) (b : Fin 64) (p : Fin 256) (e : Fin 768) :
    running Xp Wp Ep b p e 0 = part Xp Wp Ep b p e ⟨0, by decide⟩ :=
  Cert.Lib.PartialSum.sum_upto_zero (by decide) _

/-- one more block adds its partial sum; -/
theorem running_succ (Xp : (⟨2, ![64, 2048]⟩ : Shape).Idx → EReal) (Wp : (⟨2, ![256, 2048]⟩ : Shape).Idx → EReal)
    (Ep : (⟨2, ![2048, 768]⟩ : Shape).Idx → EReal) (b : Fin 64) (p : Fin 256) (e : Fin 768) (n : ℕ) (hn : n + 1 < 8) :
    running Xp Wp Ep b p e (n + 1) = running Xp Wp Ep b p e n + part Xp Wp Ep b p e ⟨n + 1, hn⟩ :=
  Cert.Lib.PartialSum.sum_upto_succ n hn _

/-- and after the last block it is the sum over the whole padded axis. -/
theorem running_last (Xp : (⟨2, ![64, 2048]⟩ : Shape).Idx → EReal) (Wp : (⟨2, ![256, 2048]⟩ : Shape).Idx → EReal)
    (Ep : (⟨2, ![2048, 768]⟩ : Shape).Idx → EReal) (b : Fin 64) (p : Fin 256) (e : Fin 768) :
    running Xp Wp Ep b p e 7 = ∑ f : Fin 2048, pterm Xp Wp Ep b p e f :=
  (Cert.Lib.PartialSum.sum_upto_last 7 (by decide) _).trans (sum_part Xp Wp Ep b p e)

/-- When the padded arrays are the arrays inside the first 2000 genes and zero beyond, the padded sum is the sum over the
    genes: a padded summand is `(0 * 0) * 0`. -/
theorem sum_pterm (X : (⟨2, ![64, 2000]⟩ : Shape).Idx → EReal) (W : (⟨2, ![256, 2000]⟩ : Shape).Idx → EReal)
    (Mk : (⟨2, ![2000, 256]⟩ : Shape).Idx → EReal) (E : (⟨2, ![2000, 768]⟩ : Shape).Idx → EReal)
    (Xp : (⟨2, ![64, 2048]⟩ : Shape).Idx → EReal) (Wp : (⟨2, ![256, 2048]⟩ : Shape).Idx → EReal)
    (Ep : (⟨2, ![2048, 768]⟩ : Shape).Idx → EReal)
    (hXin : ∀ (b : Fin 64) (d : Fin 2000), Xp (ix2 b (Fin.castLE (by decide) d)) = X (ix2 b d))
    (hXout : ∀ (b : Fin 64) (f : Fin 2048), 2000 ≤ f.val → Xp (ix2 b f) = 0)
    (hWin : ∀ (p : Fin 256) (d : Fin 2000), Wp (ix2 p (Fin.castLE (by decide) d)) = W (ix2 p d) * Mk (ix2 d p))
    (hWout : ∀ (p : Fin 256) (f : Fin 2048), 2000 ≤ f.val → Wp (ix2 p f) = 0)
    (hEin : ∀ (d : Fin 2000) (e : Fin 768), Ep (ix2 (Fin.castLE (by decide) d) e) = E (ix2 d e))
    (hEout : ∀ (f : Fin 2048) (e : Fin 768), 2000 ≤ f.val → Ep (ix2 f e) = 0)
    (b : Fin 64) (p : Fin 256) (e : Fin 768) :
    ∑ f : Fin 2048, pterm Xp Wp Ep b p e f = ∑ d : Fin 2000, term X W Mk E b p e d := by
  rw [Cert.Lib.PadSum.sum_of_zero_tail (show 2000 ≤ 2048 by decide) (pterm Xp Wp Ep b p e)
    (fun f hf => by unfold pterm; rw [hXout b f hf, hWout p f hf, hEout f e hf]; simp)]
  refine Finset.sum_congr rfl fun d _ => ?_
  unfold pterm term
  rw [hXin, hWin, hEin]

end Cert.Spec

end
-- ==== Proof.Blocks.lean ====
/-
  Which part of each array a grid point's block is.

  The grid has 2 * 6 * 8 points, numbered row-major: point `t` works on pathway tile `t / 48`, embedding tile
  `t / 8 % 6` and gene block `t % 8`. Its input block holds all 64 batch rows at the gene block's 256 positions; its
  weight block the pathway tile's 128 rows at those positions; its table block those 256 positions at the embedding
  tile's 128 columns; its bias block the pathway tile's 128 rows of the column. A block's entry sits in the array at
  block index times block size plus the entry's own coordinate, on every axis.
-/
import proofs.«112811_j30193620091140_1_alg».proof.Proof.Gen.KernelIdeal.Frame
import proofs.«112811_j30193620091140_1_alg».proof.Proof.Entry
import proofs.«112811_j30193620091140_1_alg».proof.Proof.Spec
import Idealize.ShloMosaic.Lib.Pipeline.Value
import Idealize.ShloMosaic.Lib.ValueIdx

noncomputable section

open Idealize.ShloMosaic Idealize.ShloMosaic.TcCoe Idealize.ShloMosaic.ValueIdx Idealize.SL.Sem

namespace Cert.KernelIdeal.Blocks

open Cert.KernelIdeal Cert.KernelIdeal.Gen Cert.KernelIdeal.Entry

/-- The gene block of point `t`. -/
def geneBlock (t : Fin cfg0.N) : Fin 8 := ⟨t.val % 8, Nat.mod_lt _ (by decide)⟩

/-- Row `p` of point `t`'s pathway tile, among the 256 pathways. -/
def pathway (t : Fin cfg0.N) (p : Fin 128) : Fin 256 :=
  ⟨t.val / 48 * 128 + p.val, by have h1 := t.isLt; have h2 : cfg0.N = 96 := N_0; have h3 := p.isLt; omega⟩

/-- Column `q` of point `t`'s embedding tile, among the 768 coordinates. -/
def coord (t : Fin cfg0.N) (q : Fin 128) : Fin 768 :=
  ⟨t.val / 8 % 6 * 128 + q.val, by have h3 := q.isLt; omega⟩

@[simp] theorem geneBlock_val (t : Fin cfg0.N) : (geneBlock t).val = t.val % 8 := rfl
@[simp] theorem pathway_val (t : Fin cfg0.N) (p : Fin 128) : (pathway t p).val = t.val / 48 * 128 + p.val := rfl
@[simp] theorem coord_val (t : Fin cfg0.N) (q : Fin 128) : (coord t q).val = t.val / 8 % 6 * 128 + q.val := rfl

/-- The block indices of the five windows at every point, decided over the grid. -/
theorem index_x : ∀ t : Fin cfg0.N, win0_0.index t (0 : Fin 2) = 0 ∧ win0_0.index t (1 : Fin 2) = t.val % 8 :=
  (by decide +kernel : ∀ t : Fin grid0.N, win0_0.index t (0 : Fin 2) = 0 ∧ win0_0.index t (1 : Fin 2) = t.val % 8)
theorem index_w : ∀ t : Fin cfg0.N, win0_1.index t (0 : Fin 2) = t.val / 48 ∧ win0_1.index t (1 : Fin 2) = t.val % 8 :=
  (by decide +kernel : ∀ t : Fin grid0.N, win0_1.index t (0 : Fin 2) = t.val / 48 ∧ win0_1.index t (1 : Fin 2) = t.val % 8)
theorem index_t : ∀ t : Fin cfg0.N, win0_2.index t (0 : Fin 2) = t.val % 8 ∧ win0_2.index t (1 : Fin 2) = t.val / 8 % 6 :=
  (by decide +kernel : ∀ t : Fin grid0.N, win0_2.index t (0 : Fin 2) = t.val % 8 ∧ win0_2.index t (1 : Fin 2) = t.val / 8 % 6)
theorem index_b : ∀ t : Fin cfg0.N, win0_3.index t (0 : Fin 2) = t.val / 48 ∧ win0_3.index t (1 : Fin 2) = 0 :=
  (by decide +kernel : ∀ t : Fin grid0.N, win0_3.index t (0 : Fin 2) = t.val / 48 ∧ win0_3.index t (1 : Fin 2) = 0)
theorem index_o : ∀ t : Fin cfg0.N, win0_4.index t (0 : Fin 3) = 0 ∧ win0_4.index t (1 : Fin 3) = t.val / 48
    ∧ win0_4.index t (2 : Fin 3) = t.val / 8 % 6 :=
  (by decide +kernel : ∀ t : Fin grid0.N, win0_4.index t (0 : Fin 3) = 0 ∧ win0_4.index t (1 : Fin 3) = t.val / 48
    ∧ win0_4.index t (2 : Fin 3) = t.val / 8 % 6)

variable {F : FTy → Type} [FloatOps F]
variable (m : (ℓ : Loc nD τ sig) → Buf (Elt F) ℓ)

/-- The four input blocks of point `t`. -/
abbrev xblk (c : Dev nD) (t : Fin cfg0.N) : Vec F S64x256 .f32 := iblk m c 0 t
abbrev wblk (c : Dev nD) (t : Fin cfg0.N) : Vec F S128x256 .f32 := iblk m c 1 t
abbrev tblk (c : Dev nD) (t : Fin cfg0.N) : Vec F S256x128 .f32 := iblk m c 2 t
abbrev cblk (c : Dev nD) (t : Fin cfg0.N) : Vec F S128x1 .f32 := iblk m c 3 t

theorem xblk_apply (c : Dev nD) (t : Fin cfg0.N) (b : Fin 64) (j : Fin 256) :
    xblk m c t (ix2 b j) = xpad m c (ix2 b (Cert.Spec.gene (geneBlock t) j)) := by
  have hi := index_x t
  unfold xblk iblk
  rw [View.read_apply]
  show V m c main_v2 _ = V m c main_v2 _
  refine congrArg (V m c main_v2) (funext fun a => Fin.ext ?_)
  match a with
  | ⟨0, _⟩ => show win0_0.index t (0 : Fin 2) * 64 + 1 * b.val = b.val; rw [hi.1]; omega
  | ⟨1, _⟩ => show win0_0.index t (1 : Fin 2) * 256 + 1 * j.val = t.val % 8 * 256 + j.val; rw [hi.2]; omega

theorem wblk_apply (c : Dev nD) (t : Fin cfg0.N) (p : Fin 128) (j : Fin 256) :
    wblk m c t (ix2 p j) = wpad m c (ix2 (pathway t p) (Cert.Spec.gene (geneBlock t) j)) := by
  have hi := index_w t
  unfold wblk iblk
  rw [View.read_apply]
  show V m c main_v3 _ = V m c main_v3 _
  refine congrArg (V m c main_v3) (funext fun a => Fin.ext ?_)
  match a with
  | ⟨0, _⟩ => show win0_1.index t (0 : Fin 2) * 128 + 1 * p.val = t.val / 48 * 128 + p.val; rw [hi.1]; omega
  | ⟨1, _⟩ => show win0_1.index t (1 : Fin 2) * 256 + 1 * j.val = t.val % 8 * 256 + j.val; rw [hi.2]; omega

theorem tblk_apply (c : Dev nD) (t : Fin cfg0.N) (j : Fin 256) (q : Fin 128) :
    tblk m c t (ix2 j q) = tpad m c (ix2 (Cert.Spec.gene (geneBlock t) j) (coord t q)) := by
  have hi := index_t t
  unfold tblk iblk
  rw [View.read_apply]
  show V m c main_v4 _ = V m c main_v4 _
  refine congrArg (V m c main_v4) (funext fun a => Fin.ext ?_)
  match a with
  | ⟨0, _⟩ => show win0_2.index t (0 : Fin 2) * 256 + 1 * j.val = t.val % 8 * 256 + j.val; rw [hi.1]; omega
  | ⟨1, _⟩ => show win0_2.index t (1 : Fin 2) * 128 + 1 * q.val = t.val / 8 % 6 * 128 + q.val; rw [hi.2]; omega

theorem cblk_apply (c : Dev nD) (t : Fin cfg0.N) (p : Fin 128) (u : Fin 1) :
    cblk m c t (ix2 p u) = bcol m c (ix2 (pathway t p) u) := by
  have hi := index_b t
  unfold cblk iblk
  rw [View.read_apply]
  show V m c main_v5 _ = V m c main_v5 _
  refine congrArg (V m c main_v5) (funext fun a => Fin.ext ?_)
  match a with
  | ⟨0, _⟩ => show win0_3.index t (0 : Fin 2) * 128 + 1 * p.val = t.val / 48 * 128 + p.val; rw [hi.1]; omega
  | ⟨1, _⟩ => show win0_3.index t (1 : Fin 2) * 1 + 1 * u.val = u.val; rw [hi.2]; omega

end Cert.KernelIdeal.Blocks

end
-- ==== Proof.Accumulate.lean ====
/-
  What the scratch holds after each grid point, and what the output block holds at a tile's last point.

  Within one tile (a pathway tile and an embedding tile) the eight gene blocks are visited one after the other.
  After the block numbered `n` the scratch's entry `(b, p, q)` is the running sum of the blocks `0 … n` of the padded
  contraction for batch row `b`, the tile's pathway `p` and the tile's coordinate `q`: the first block adds its partial
  sum to zero, each later block adds its partial sum to what the block before left, and the tile does not change between
  them. By induction over the points. At the last block the output block's entry is that sum over all eight blocks —
  the whole padded contraction, hence the contraction over the 2000 genes — plus the pathway's bias.
-/
import proofs.«112811_j30193620091140_1_alg».proof.Proof.Pieces
import proofs.«112811_j30193620091140_1_alg».proof.Proof.Payload
import proofs.«112811_j30193620091140_1_alg».proof.Proof.Blocks

open scoped BigOperators

noncomputable section

open Idealize.ShloMosaic Idealize.ShloMosaic.TcCoe Idealize.ShloMosaic.ValueIdx Idealize.SL.Sem

namespace Cert.KernelIdeal.Sum

open Cert.KernelIdeal Cert.KernelIdeal.Gen Cert.KernelIdeal.Entry Cert.KernelIdeal.Blocks Cert.Spec

variable (m : (ℓ : Loc nD τ sig) → Buf (Elt Ideal) ℓ)

/-- The running sum the scratch holds after point `t`, at the entry `(b, p, q)` of its tile. -/
def held (c : Dev nD) (t : Fin cfg0.N) (b : Fin 64) (p q : Fin 128) : EReal :=
  running (xpad m c) (wpad m c) (tpad m c) b (pathway t p) (coord t q) (t.val % 8)

/-- The sum the update adds at point `t` is the partial sum of the point's gene block. -/
theorem added (c : Dev nD) (t : Fin cfg0.N) (b : Fin 64) (p q : Fin 128) :
    ∑ j : Fin 256, (xblk m c t (ix2 b j) * wblk m c t (ix2 p j)) * tblk m c t (ix2 j q)
      = part (xpad m c) (wpad m c) (tpad m c) b (pathway t p) (coord t q) (geneBlock t) := by
  unfold part pterm
  refine Finset.sum_congr rfl fun j _ => ?_
  rw [xblk_apply, wblk_apply, tblk_apply]

/-- At a tile's first gene block the update of the zero block is the running sum. -/
theorem first_step (c : Dev nD) (t : Fin cfg0.N) (h0 : t.val % 8 = 0) (b : Fin 64) (p q : Fin 128) :
    k0_pay2 (F := Ideal) (xblk m c t) (wblk m c t) (tblk m c t) (k0_pay1 (F := Ideal)) (ix3 b p q) = held m c t b p q := by
  rw [Arith.update_apply, Arith.zero_apply, zero_add, added]
  unfold held
  rw [h0, running_zero]
  exact congrArg _ (Fin.ext h0)

/-- At a later gene block the update of the running sum the point before left is the running sum. -/
theorem next_step (c : Dev nD) (n : ℕ) (hn : n + 1 < cfg0.N) (h0 : ¬(n + 1) % 8 = 0) (prev : Vec Ideal S64x128x128 .f32)
    (hprev : ∀ (b : Fin 64) (p q : Fin 128), prev (ix3 b p q) = held m c ⟨n, Nat.lt_of_succ_lt hn⟩ b p q)
    (b : Fin 64) (p q : Fin 128) :
    k0_pay2 (F := Ideal) (xblk m c ⟨n + 1, hn⟩) (wblk m c ⟨n + 1, hn⟩) (tblk m c ⟨n + 1, hn⟩) prev (ix3 b p q)
      = held m c ⟨n + 1, hn⟩ b p q := by
  rw [Arith.update_apply, hprev, added]
  unfold held
  have e1 : pathway ⟨n, Nat.lt_of_succ_lt hn⟩ p = pathway ⟨n + 1, hn⟩ p := Fin.ext (by simp only [pathway_val]; omega)
  have e2 : coord ⟨n, Nat.lt_of_succ_lt hn⟩ q = coord ⟨n + 1, hn⟩ q := Fin.ext (by simp only [coord_val]; omega)
  have e3 : (n + 1) % 8 = n % 8 + 1 := by omega
  rw [e1, e2]
  show running _ _ _ b _ _ (n % 8) + _ = running _ _ _ b _ _ ((n + 1) % 8)
  rw [e3, running_succ _ _ _ _ _ _ _ (by omega)]
  exact congrArg _ (congrArg _ (Fin.ext (by simp only [geneBlock_val]; omega)))

/-- The scratch after every point holds the running sum. -/
theorem scratch_eq (c : Dev nD) : ∀ (n : ℕ) (h : n < cfg0.N) (b : Fin 64) (p q : Fin 128),
    (outsAt0 m c n h).2 (ix3 b p q) = held m c ⟨n, h⟩ b p q
  | 0, h => fun b p q => by
    have h0 : (⟨0, h⟩ : Fin cfg0.N).val % 8 = 0 := rfl
    have h1 : ¬(⟨0, h⟩ : Fin cfg0.N).val % 8 = 7 := by show ¬((0 : ℕ) % 8 = 7); decide
    rw [outsAt0_A m c ⟨0, h⟩ h0 h1]
    dsimp only
    exact (congrFun (Body.scratch_first (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) ((hcond0_0 ⟨0, h⟩).mpr h0) (fun hh => h1 ((hcond0_1 ⟨0, h⟩).mp hh)) (xblk m c ⟨0, h⟩) (wblk m c ⟨0, h⟩) (tblk m c ⟨0, h⟩) (cblk m c ⟨0, h⟩)) (ix3 b p q)).trans
      (first_step m c ⟨0, h⟩ h0 b p q)
  | n + 1, h => fun b p q => by
    have ih := scratch_eq c n (Nat.lt_of_succ_lt h)
    by_cases h0 : (n + 1) % 8 = 0
    · have h1 : ¬(n + 1) % 8 = 7 := by omega
      rw [outsAt0_A m c ⟨n + 1, h⟩ h0 h1]
      dsimp only
      exact (congrFun (Body.scratch_first (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) ((hcond0_0 ⟨n + 1, h⟩).mpr h0) (fun hh => h1 ((hcond0_1 ⟨n + 1, h⟩).mp hh)) (xblk m c ⟨n + 1, h⟩) (wblk m c ⟨n + 1, h⟩) (tblk m c ⟨n + 1, h⟩) (cblk m c ⟨n + 1, h⟩)) (ix3 b p q)).trans
        (first_step m c ⟨n + 1, h⟩ h0 b p q)
    · by_cases h1 : (n + 1) % 8 = 7
      · rw [outsAt0_C m c ⟨n + 1, h⟩ h0 h1]
        dsimp only
        exact (congrFun (Body.scratch_last (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) (fun hh => h0 ((hcond0_0 ⟨n + 1, h⟩).mp hh)) ((hcond0_1 ⟨n + 1, h⟩).mpr h1) (xblk m c ⟨n + 1, h⟩) (wblk m c ⟨n + 1, h⟩) (tblk m c ⟨n + 1, h⟩) (cblk m c ⟨n + 1, h⟩) (outsAt0 m c n (Nat.lt_of_succ_lt h)).2) (ix3 b p q)).trans
          (next_step m c n h h0 _ ih b p q)
      · rw [outsAt0_B m c ⟨n + 1, h⟩ h0 h1]
        dsimp only
        exact (congrFun (Body.scratch_middle (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) (fun hh => h0 ((hcond0_0 ⟨n + 1, h⟩).mp hh)) (fun hh => h1 ((hcond0_1 ⟨n + 1, h⟩).mp hh)) (xblk m c ⟨n + 1, h⟩) (wblk m c ⟨n + 1, h⟩) (tblk m c ⟨n + 1, h⟩) (cblk m c ⟨n + 1, h⟩) (outsAt0 m c n (Nat.lt_of_succ_lt h)).2) (ix3 b p q)).trans
          (next_step m c n h h0 _ ih b p q)

/-- At a tile's last gene block the output block's entry `(b, p, q)` is the result's entry at batch row `b`, the tile's
    pathway `p` and the tile's coordinate `q`. -/
theorem out_eq (c : Dev nD) (n : ℕ) (h : n < cfg0.N) (h1 : n % 8 = 7) (b : Fin 64) (p q : Fin 128) :
    (outsAt0 m c n h).1 (ix3 b p q)
      = cube (xarg m c) (warg m c) (barg m c) (marg m c) (targ m c) (ix3 b (pathway ⟨n, h⟩ p) (coord ⟨n, h⟩ q)) := by
  cases n with
  | zero => exact absurd h1 (by decide)
  | succ n =>
    have h0 : ¬(n + 1) % 8 = 0 := by omega
    rw [outsAt0_C m c ⟨n + 1, h⟩ h0 h1]
    dsimp only
    refine (congrFun (Body.out_last (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) (fun hh => h0 ((hcond0_0 ⟨n + 1, h⟩).mp hh)) ((hcond0_1 ⟨n + 1, h⟩).mpr h1) (xblk m c ⟨n + 1, h⟩) (wblk m c ⟨n + 1, h⟩) (tblk m c ⟨n + 1, h⟩) (cblk m c ⟨n + 1, h⟩) (outsAt0 m c n (Nat.lt_of_succ_lt h)).2) (ix3 b p q)).trans ?_
    rw [Arith.bias_apply, next_step m c n h h0 _ (scratch_eq m c n (Nat.lt_of_succ_lt h)) b p q, cblk_apply, bcol_apply]
    unfold held
    show running _ _ _ b _ _ ((n + 1) % 8) + _ = _
    rw [h1, running_last, sum_pterm (xarg m c) (warg m c) (marg m c) (targ m c) (xpad m c) (wpad m c) (tpad m c)
      (xpad_in m c) (xpad_out m c) (wpad_in m c) (wpad_out m c) (tpad_in m c) (tpad_out m c), cube_apply]
    rfl

end Cert.KernelIdeal.Sum

end
-- ==== Proof.Final.lean ====
/-
  The result array after the run.

  The output block of a tile is written back once, at the tile's last gene block, and the twelve tiles' blocks tile the
  `[64, 256, 768]` array: the entry `(b, P, Q)` lies in the block of pathway tile `P / 128` and embedding tile
  `Q / 128`, written back at the point `((P / 128) * 6 + Q / 128) * 8 + 7`. What is written back there is the result's
  block, so the array ends holding the result before the merge of its last two axes; the one host operation after the
  region is that merge.
-/
import proofs.«112811_j30193620091140_1_alg».proof.Proof.Accumulate
import Idealize.ShloMosaic.Lib.Pipeline.Value
import Idealize.ShloMosaic.Lib.StableHlo.Run

noncomputable section

open Idealize.ShloMosaic Idealize.ShloMosaic.TcCoe Idealize.ShloMosaic.ValueIdx Idealize.SL.Sem
open Idealize.ShloMosaic.Pipeline (Dat)

namespace Cert.KernelIdeal.Final

open Cert.KernelIdeal Cert.KernelIdeal.Gen Cert.KernelIdeal.Entry Cert.KernelIdeal.Blocks Cert.KernelIdeal.Sum Cert.Spec

variable (m : (ℓ : Loc nD τ sig) → Buf (Elt Ideal) ℓ) (ρ : Dev nD → PrngReg)

/-- The result before the merge, of the launch contents of the five arguments. -/
abbrev whole (c : Dev nD) : Vec Ideal S64x256x768 .f32 := cube (xarg m c) (warg m c) (barg m c) (marg m c) (targ m c)

/-- Where the entry `y` of point `t`'s output block sits in the result array. -/
def tileIdx (t : Fin cfg0.N) (y : S64x128x128.Idx) : S64x256x768.Idx := fun a => match a with
  | ⟨0, _⟩ => ⟨(y 0).val, (y 0).isLt⟩
  | ⟨1, _⟩ => ⟨t.val / 48 * 128 + (y 1).val, by
      have h1 := t.isLt; have h2 : cfg0.N = 96 := N_0; have h3 : (y 1).val < 128 := (y 1).isLt; show _ < 256; omega⟩
  | ⟨2, _⟩ => ⟨t.val / 8 % 6 * 128 + (y 2).val, by have h3 : (y 2).val < 128 := (y 2).isLt; show _ < 768; omega⟩

/-- At a tile's last point the output block is the result read at the block's place in the array. -/
theorem block_eq (c : Dev nD) (t : Fin cfg0.N) (h1 : t.val % 8 = 7) :
    (outsAt0 m c t.val t.isLt).1 = fun y => whole m c (tileIdx t y) := by
  funext y
  obtain ⟨b, p, q, rfl⟩ : ∃ (b : Fin 64) (p q : Fin 128), y = ix3 b p q := ⟨y 0, y 1, y 2, eq_ix3 y⟩
  rw [out_eq m c t.val t.isLt h1 b p q]
  refine congrArg (whole m c) (funext fun a => Fin.ext ?_)
  match a with
  | ⟨0, _⟩ => rfl
  | ⟨1, _⟩ => rfl
  | ⟨2, _⟩ => rfl

/-- What a tile's last point writes back is the result's block. -/
theorem flushed_eq (c : Dev nD) (t : Fin cfg0.N) (hf : (cfg0.win 4).flush t = true) :
    (dats m 0 c).flushed 4 t = ((cfg0.win 4).blk t).view.read (Elt Ideal) (whole m c) := by
  have h1 : t.val % 8 = 7 := (flush0_4 t).mp hf
  have hi := index_o t
  show (cfg0.win 4).cut (grid0.coords t) ((dats m 0 c).after 4 t) = _
  rw [after0_4, block_eq m c t h1]
  funext y
  rw [View.read_apply]
  show whole m c (tileIdx t ((cfg0.win 4).xinj (grid0.coords t) y)) = whole m c (((cfg0.win 4).blk t).view.emb y)
  refine congrArg (whole m c) (funext fun a => Fin.ext ?_)
  match a with
  | ⟨0, _⟩ => show (y 0).val = win0_4.index t (0 : Fin 3) * 64 + 1 * (y 0).val; rw [hi.1]; omega
  | ⟨1, _⟩ => show t.val / 48 * 128 + (y 1).val = win0_4.index t (1 : Fin 3) * 128 + 1 * (y 1).val; rw [hi.2.1]; omega
  | ⟨2, _⟩ => show t.val / 8 % 6 * 128 + (y 2).val = win0_4.index t (2 : Fin 3) * 128 + 1 * (y 2).val; rw [hi.2.2]; omega

/-- An entry of the array is in point `t`'s block iff each coordinate is in the block's range on its axis. -/
theorem mem_block (t : Fin cfg0.N) (i : S64x256x768.Idx) :
    i ∈ ((cfg0.win 4).blk t).view.set ↔ ∀ a : Fin 3, win0_4.index t a * S64x128x128.size a ≤ (i a).val
      ∧ (i a).val < win0_4.index t a * S64x128x128.size a + S64x128x128.size a := by
  show i ∈ ((View.whole main_v6).slice (win0_4.rect t)).set ↔ _
  rw [View.set_slice_whole, Rect.mem_set_unit]
  exact Iff.rfl

/-- Every entry of the array is in the block some tile's last point writes back. -/
theorem covered (i : S64x256x768.Idx) :
    ∃ t : Fin cfg0.N, (cfg0.win 4).flush t = true ∧ i ∈ ((cfg0.win 4).blk t).view.set := by
  have hN : cfg0.N = 96 := N_0
  have h0 : (i 0).val < 64 := (i 0).isLt
  have h1 : (i 1).val < 256 := (i 1).isLt
  have h2 : (i 2).val < 768 := (i 2).isLt
  let t : Fin cfg0.N := ⟨((i 1).val / 128 * 6 + (i 2).val / 128) * 8 + 7, by omega⟩
  have ht : t.val = ((i 1).val / 128 * 6 + (i 2).val / 128) * 8 + 7 := rfl
  have hi := index_o t
  refine ⟨t, (flush0_4 t).mpr (by omega), ?_⟩
  rw [mem_block]
  intro a
  match a with
  | ⟨0, _⟩ => show win0_4.index t (0 : Fin 3) * 64 ≤ (i 0).val ∧ (i 0).val < win0_4.index t (0 : Fin 3) * 64 + 64; rw [hi.1]; omega
  | ⟨1, _⟩ => show win0_4.index t (1 : Fin 3) * 128 ≤ (i 1).val ∧ (i 1).val < win0_4.index t (1 : Fin 3) * 128 + 128; rw [hi.2.1]; omega
  | ⟨2, _⟩ => show win0_4.index t (2 : Fin 3) * 128 ≤ (i 2).val ∧ (i 2).val < win0_4.index t (2 : Fin 3) * 128 + 128; rw [hi.2.2]; omega

/-- So the region's result array ends holding the result before the merge. -/
theorem array_eq (c : Dev nD) : (dats m 0 c).arrAt 4 cfg0.N = whole m c :=
  (dats m 0 c).arrAt_eq_of_cover 4 (whole m c) (flushed_eq m c) covered

/-- The host operation after the region merges the last two axes of that array. -/
theorem tail_eq (c : Dev nD) :
    Pipeline.afterTail₀ cfgs (dats m) 0 (V0 m) [hostOps1] c main_v7
      = result Facts₀.shapeCasts_S64x256x768_S64x196608 (xarg m c) (warg m c) (barg m c) (marg m c) (targ m c) := by
  unfold Pipeline.afterTail₀
  show StableHlo.after hostOps1 _ (Proc.devRef .tc main_v7) = _
  after_results
  unfold result
  refine congrArg (fun v => shapeCast S64x196608 v Facts₀.shapeCasts_S64x256x768_S64x196608) ?_
  exact (Pipeline.withArrays_arr spec0 winFacts0.arr_inj c _ _ 4).trans (array_eq m c)

/-- The run, read: the result at the specified function of the arguments, the arguments unchanged. -/
theorem run : θ_run defs (onTc (τ := τ) (main (F := Ideal))) ⟨m, fun _ => 0, ρ⟩ fun r => ∀ c : Dev nD,
      r.2.mem ((c.tc : Thread nD τ).loc main_v7)
        = result Facts₀.shapeCasts_S64x256x768_S64x196608 (xarg m c) (warg m c) (barg m c) (marg m c) (targ m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v7 (Pipeline.mem_restRefs_of main_v7 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Final

end
-- ==== Proof.RefValue.lean ====
/-
  The reference computes the same function.

  The reference multiplies the weights by the transposed mask, spreads the input along a new pathway axis and the
  masked weights along a new batch axis, multiplies entry by entry, contracts the gene axis against the embedding
  table, adds the bias spread over batch rows and coordinates, and merges the last two axes. Read at the entry
  `(b, p, e)` before the merge, that is the sum over the 2000 genes `d` of `(x(b,d) * (w(p,d) * mask(d,p))) * emb(d,e)`
  plus `bias(p)`: each layout step reads its operand at the coordinates it keeps.
-/
import proofs.«112811_j30193620091140_1_alg».proof.Proof.Gen.ReferenceIdeal.Read
import proofs.«112811_j30193620091140_1_alg».proof.Proof.Spec

open scoped BigOperators

noncomputable section

open Idealize.ShloMosaic Idealize.ShloMosaic.TcCoe Idealize.ShloMosaic.ValueIdx Idealize.SL.Sem

namespace Cert.ReferenceIdeal.RefValue

open Cert.ReferenceIdeal Cert.ReferenceIdeal.Read Cert.Spec

/-- The coordinates each layout step keeps, composed. -/
theorem keep_x (b : Fin 64) (p : Fin 256) (e : Fin 768) (k : Fin 2000) :
    idx_main_v2 (idx_main_v4 (lidx_main_v7 (ix3 b p e) k)) = ix2 b k :=
  funext fun a => Fin.ext (by match a with | ⟨0, _⟩ => rfl | ⟨1, _⟩ => rfl)
theorem keep_w (b : Fin 64) (p : Fin 256) (e : Fin 768) (k : Fin 2000) :
    idx_main_v3 (idx_main_v5 (lidx_main_v7 (ix3 b p e) k)) = ix2 p k :=
  funext fun a => Fin.ext (by match a with | ⟨0, _⟩ => rfl | ⟨1, _⟩ => rfl)
theorem keep_mask (p : Fin 256) (k : Fin 2000) : idx_main_v0 (ix2 p k) = ix2 k p :=
  funext fun a => Fin.ext (by match a with | ⟨0, _⟩ => rfl | ⟨1, _⟩ => rfl)
theorem keep_table (b : Fin 64) (p : Fin 256) (e : Fin 768) (k : Fin 2000) : ridx_main_v7 (ix3 b p e) k = ix2 k e :=
  funext fun a => Fin.ext (by match a with | ⟨0, _⟩ => rfl | ⟨1, _⟩ => rfl)
theorem keep_bias (b : Fin 64) (p : Fin 256) (e : Fin 768) : idx_main_v8 (idx_main_v9 (ix3 b p e)) = ix1 p :=
  funext fun a => Fin.ext (by match a with | ⟨0, _⟩ => rfl)

/-- The reference before the merge, at the entry `(b, p, e)`. -/
theorem stage_apply (x0 : Vec Ideal S64x2000 .f32) (x1 : Vec Ideal S256x2000 .f32) (x2 : Vec Ideal S256 .f32)
    (x3 : Vec Ideal S2000x256 .f32) (x4 : Vec Ideal S2000x768 .f32) (b : Fin 64) (p : Fin 256) (e : Fin 768) :
    val_main_v10 (F := Ideal) x0 x1 x2 x3 x4 (ix3 b p e) = out3 x0 x1 x2 x3 x4 b p e := by
  rw [val_main_v10_apply, val_main_v7_apply, val_main_v9_apply, val_main_v8_apply, keep_bias]
  unfold out3 term
  show (∑ k : Fin 2000, _) + _ = _
  refine congrArg (· + x2 (ix1 p)) (Finset.sum_congr rfl fun k _ => ?_)
  rw [val_main_v6_apply, val_main_v4_apply, val_main_v2_apply, val_main_v5_apply, val_main_v3_apply, val_main_v1_apply,
    val_main_v0_apply, keep_x, keep_w, keep_mask, keep_table]
  rfl

/-- The reference's result is the specified function of its arguments. -/
theorem result_eq (x0 : Vec Ideal S64x2000 .f32) (x1 : Vec Ideal S256x2000 .f32) (x2 : Vec Ideal S256 .f32)
    (x3 : Vec Ideal S2000x256 .f32) (x4 : Vec Ideal S2000x768 .f32) :
    val_main_v11 (F := Ideal) x0 x1 x2 x3 x4 = result Facts₀.shapeCasts_S64x256x768_S64x196608 x0 x1 x2 x3 x4 := by
  unfold val_main_v11 result
  refine congrArg (fun v => shapeCast S64x196608 v Facts₀.shapeCasts_S64x256x768_S64x196608) (funext fun i => ?_)
  obtain ⟨b, p, e, rfl⟩ : ∃ (b : Fin 64) (p : Fin 256) (e : Fin 768), i = ix3 b p e := ⟨i 0, i 1, i 2, eq_ix3 i⟩
  rw [stage_apply, cube_apply]

end Cert.ReferenceIdeal.RefValue

end
-- ==== Proof.lean ====
/-
  The certificate: the kernel and its reference compute the same function over the extended reals.

  For batch row `b`, pathway `p` and embedding coordinate `e` both programs end with
      (sum over the 2000 genes d of (x(b,d) * (w(p,d) * mask(d,p))) * emb(d,e)) + bias(p)
  at column `p * 768 + e` of row `b`. The reference contracts the gene axis in one step. The kernel pads that axis
  with zeros to 2048, visits it in 8 blocks of 256 per output tile, keeps the running sum of the blocks' partial
  sums in a scratch buffer, and adds the bias when the last block is in. A padded summand is `(0 * 0) * 0 = 0` and a
  sum may be taken block by block in any commutative additive monoid, so the two agree for every input, finite or not:
  the precondition is never opened. The changes of float format inside the kernel are the identity over the extended
  reals, and the ideal pass rewrote nothing, so the kernel's idealization is the kernel's own text.

  The three frames are the generated ones (the reference's is its generated run with the result dropped).
-/
import proofs.«112811_j30193620091140_1_alg».proof.Defs
import proofs.«112811_j30193620091140_1_alg».proof.Proof.Gen.Kernel
import proofs.«112811_j30193620091140_1_alg».proof.Proof.Gen.Kernel.Frame
import proofs.«112811_j30193620091140_1_alg».proof.Proof.Gen.KernelIdeal
import proofs.«112811_j30193620091140_1_alg».proof.Proof.Gen.KernelIdeal.Frame
import proofs.«112811_j30193620091140_1_alg».proof.Proof.Gen.ReferenceIdeal
import proofs.«112811_j30193620091140_1_alg».proof.Proof.Gen.Pre_finite_inputs
import proofs.«112811_j30193620091140_1_alg».proof.Proof.Gen.ReferenceIdeal.Run
import proofs.«112811_j30193620091140_1_alg».proof.Proof.Gen.ReferenceIdeal.Read
import proofs.«112811_j30193620091140_1_alg».proof.Proof.Final
import proofs.«112811_j30193620091140_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- Both programs, run from memories that agree on the five arguments, end with the specified function of those
    arguments in their result arrays. -/
theorem algebraic : Cert.algebraic_KernelIdeal_ReferenceIdeal := by
  intro m ρ m' ρ' _ hagree
  refine ⟨fun c => Cert.Spec.result Cert.KernelIdeal.Facts₀.shapeCasts_S64x256x768_S64x196608
    (Cert.KernelIdeal.Entry.xarg m c) (Cert.KernelIdeal.Entry.warg m c) (Cert.KernelIdeal.Entry.barg m c)
    (Cert.KernelIdeal.Entry.marg m c) (Cert.KernelIdeal.Entry.targ m c), Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.result_eq, (hagree c).1, (hagree c).2.1,
    (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
